-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v25)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v25) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v34) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1000000x128 : Shape := ⟨2, ![1000000, 128]⟩
abbrev S1000000 : Shape := ⟨1, ![1000000]⟩
abbrev S128x128 : Shape := ⟨2, ![128, 128]⟩
abbrev S128 : Shape := ⟨1, ![128]⟩
abbrev S_ : Shape := ⟨0, ![]⟩

class Facts : Prop where
  bcast_S_S1000000x128 : S_.BroadcastsInDim S1000000x128 (![] : Fin 0 → Fin S1000000x128.rank)
  reducesTo_S1000000x128_S_d0_1 : S1000000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S1000000 : S_.BroadcastsInDim S1000000 (![] : Fin 0 → Fin S1000000.rank)
  reducesTo_S1000000_S_d0 : S1000000.ReducesTo [0] S_

variable [Facts]

def fn_part1 {F : FTy → Type} [FloatOps F] (main_arg1 : IVec S1000000 32) (main_arg5 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_c_8 : IVec S_ 32 := constantI S_ 32 0#32
  let main_v24 : IVec S1000000 32 := broadcastInDim S1000000 ![] bcast_S_S1000000 main_c_8
  let main_v25 : IVec S1000000 1 := cmpi .sge main_arg1 main_v24
  let main_c_9 : IVec S_ 1 := constantI S_ 1 1#1
  let main_v26 : IVec S_ 1 := (fun x v => Host.reduce IntOp.andi x v reducesTo_S1000000_S_d0 h_S_) main_v25 main_c_9
  let main_v27 : IVec S_ 1 := andi main_v23 main_v26
  let main_c_10 : IVec S_ 32 := constantI S_ 32 64#32
  let main_v28 : IVec S1000000 32 := broadcastInDim S1000000 ![] bcast_S_S1000000 main_c_10
  let main_v29 : IVec S1000000 1 := cmpi .slt main_arg1 main_v28
  let main_c_11 : IVec S_ 1 := constantI S_ 1 1#1
  let main_v30 : IVec S_ 1 := (fun x v => Host.reduce IntOp.andi x v reducesTo_S1000000_S_d0 h_S_) main_v29 main_c_11
  let main_v31 : IVec S_ 1 := andi main_v27 main_v30
  main_v31

def fn {F : FTy → Type} [FloatOps F] (main_arg0 : FVec F S1000000x128 .f32) (main_arg1 : IVec S1000000 32) (main_arg2 : FVec F S128x128 .f32) (main_arg3 : FVec F S128 .f32) (main_arg4 : FVec F S128x128 .f32) (main_arg5 : FVec F S128 .f32) : IVec S_ 1 :=
  let main_v0 : FVec F S1000000x128 .f32 := Host.absf main_arg0
  let main_cst : FVec F S_ .f32 := constant S_ .f32 0x7F800000#32
  let main_v1 : FVec F S1000000x128 .f32 := broadcastInDim S1000000x128 ![] bcast_S_S1000000x128 main_cst
  let main_v2 : IVec S1000000x128 1 := cmpf .olt main_v0 main_v1
  let main_c : IVec S_ 1 := constantI S_ 1 1#1
  let main_v3 : IVec S_ 1 := (fun x v => Host.reduce IntOp.andi x v reducesTo_S1000000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg1 main_arg5 main_v13 main_v16
-- ==== Kernel.lean ====
abbrev S1000000x128 : Shape := ⟨2, ![1000000, 128]⟩
abbrev S1000000 : Shape := ⟨1, ![1000000]⟩
abbrev S128x128 : Shape := ⟨2, ![128, 128]⟩
abbrev S128 : Shape := ⟨1, ![128]⟩
abbrev S1000000x1 : Shape := ⟨2, ![1000000, 1]⟩
abbrev S2x64x128 : Shape := ⟨3, ![2, 64, 128]⟩
abbrev S2x1x64 : Shape := ⟨3, ![2, 1, 64]⟩
abbrev S10000x128 : Shape := ⟨2, ![10000, 128]⟩
abbrev S10000x1 : Shape := ⟨2, ![10000, 1]⟩
abbrev S1x64x128 : Shape := ⟨3, ![1, 64, 128]⟩
abbrev S1x1x64 : Shape := ⟨3, ![1, 1, 64]⟩
abbrev S10000x64 : Shape := ⟨2, ![10000, 64]⟩
abbrev S64x128 : Shape := ⟨2, ![64, 128]⟩
abbrev S64 : Shape := ⟨1, ![64]⟩
abbrev S1x64 : Shape := ⟨2, ![1, 64]⟩
abbrev S_ : Shape := ⟨0, ![]⟩
abbrev S64x1 : Shape := ⟨2, ![64, 1]⟩
abbrev S1x128 : Shape := ⟨2, ![1, 128]⟩

abbrev nBuf : Space → Nat
  | .hbm => 40
  | .vmem => 15
  | .smem => 0
  | _ => 0

abbrev bufTy : (tb : Table) → Fin (tcTables nBuf tb) → BufTy
  | .hbm, ⟨0, _⟩ => ⟨S1000000x128, .f32⟩
  | .hbm, ⟨1, _⟩ => ⟨S1000000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S1000000x1, .i32⟩
  | .hbm, ⟨7, _⟩ => ⟨S2x64x128, .f32⟩
  | .hbm, ⟨8, _⟩ => ⟨S2x1x64, .f32⟩
  | .hbm, ⟨9, _⟩ => ⟨S_, .f32⟩
  | .hbm, ⟨10, _⟩ => ⟨S64x128, .f32⟩
  | .hbm, ⟨11, _⟩ => ⟨S_, .f32⟩
  | .hbm, ⟨12, _⟩ => ⟨S1x64, .f32⟩
  | .hbm, ⟨13, _⟩ => ⟨S64, .f32⟩
  | .hbm, ⟨14, _⟩ => ⟨S_, .f32⟩
  | .hbm, ⟨15, _⟩ => ⟨S64, .f32⟩
  | .hbm, ⟨16, _⟩ => ⟨S64, .f32⟩
  | .hbm, ⟨17, _⟩ => ⟨S64x1, .f32⟩
  | .hbm, ⟨18, _⟩ => ⟨S64x128, .f32⟩
  | .hbm, ⟨19, _⟩ => ⟨S64x128, .f32⟩
  | .hbm, ⟨20, _⟩ => ⟨S64x128, .f32⟩
  | .hbm, ⟨21, _⟩ => ⟨S1x128, .f32⟩
  | .hbm, ⟨22, _⟩ => ⟨S64x128, .f32⟩
  | .hbm, ⟨23, _⟩ => ⟨S64x128, .f32⟩
  | .hbm, ⟨24, _⟩ => ⟨S_, .f32⟩
  | .hbm, ⟨25, _⟩ => ⟨S64x128, .f32⟩
  | .hbm, ⟨26, _⟩ => ⟨S64x128, .f32⟩
  | .hbm, ⟨27, _⟩ => ⟨S64x128, .f32⟩
  | .hbm, ⟨28, _⟩ => ⟨S1x128, .f32⟩
  | .hbm, ⟨29, _⟩ => ⟨S64x128, .f32⟩
  | .hbm, ⟨30, _⟩ => ⟨S64x128, .f32⟩
  | .hbm, ⟨31, _⟩ => ⟨S64x128, .f32⟩
  | .hbm, ⟨32, _⟩ => ⟨S64x128, .f32⟩
  | .hbm, ⟨33, _⟩ => ⟨S_, .f32⟩
  | .hbm, ⟨34, _⟩ => ⟨S64x128, .f32⟩
  | .hbm, ⟨35, _⟩ => ⟨S64x128, .f32⟩
  | .hbm, ⟨36, _⟩ => ⟨S_, .f32⟩
  | .hbm, ⟨37, _⟩ => ⟨S64x128, .f32⟩
  | .hbm, ⟨38, _⟩ => ⟨S64x128, .f32⟩
  | .hbm, ⟨39, _⟩ => ⟨S1000000x128, .f32⟩
  | .local _ .vmem, ⟨0, _⟩ => ⟨S10000x128, .f32⟩
  | .local _ .vmem, ⟨1, _⟩ => ⟨S10000x128, .f32⟩
  | .local _ .vmem, ⟨2, _⟩ => ⟨S10000x1, .i32⟩
  | .local _ .vmem, ⟨3, _⟩ => ⟨S10000x1, .i32⟩
  | .local _ .vmem, ⟨4, _⟩ => ⟨S1x64x128, .f32⟩
  | .local _ .vmem, ⟨5, _⟩ => ⟨S1x64x128, .f32⟩
  | .local _ .vmem, ⟨6, _⟩ => ⟨S1x1x64, .f32⟩
  | .local _ .vmem, ⟨7, _⟩ => ⟨S1x1x64, .f32⟩
  | .local _ .vmem, ⟨8, _⟩ => ⟨S10000x128, .f32⟩
  | .local _ .vmem, ⟨9, _⟩ => ⟨S10000x128, .f32⟩
  | .local _ .vmem, ⟨10, _⟩ => ⟨S10000x1, .i32⟩
  | .local _ .vmem, ⟨11, _⟩ => ⟨S10000x1, .i32⟩
  | .local _ .vmem, ⟨12, _⟩ => ⟨S64x128, .f32⟩
  | .local _ .vmem, ⟨13, _⟩ => ⟨S10000x128, .f32⟩
  | .local _ .vmem, ⟨14, _⟩ => ⟨S10000x128, .f32⟩
  | _, _ => ⟨S1000000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1_0 : Ref sig .tc := ⟨.hbm, 7, rfl⟩
abbrev main_v1_1 : Ref sig .tc := ⟨.hbm, 8, rfl⟩
abbrev main_cst : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_call0_cst : Ref sig .tc := ⟨.hbm, 24, rfl⟩
abbrev main_call0_v0 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_2 : Ref sig .tc := ⟨.hbm, 33, rfl⟩
abbrev main_v21 : Ref sig .tc := ⟨.hbm, 34, rfl⟩
abbrev main_v22 : Ref sig .tc := ⟨.hbm, 35, rfl⟩
abbrev main_cst_3 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg3_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem3_0 : DmaSem sig := 13
abbrev cc1_sem3_1 : DmaSem sig := 14

abbrev nD : Nat := 1
abbrev τ : Topo := Topo.v7x

variable {F : FTy → Type} [FloatOps F]

abbrev grid0 : Pipeline.Grid := ⟨2, ![2, 50], ![false, false]⟩

def cc0_transform_0 (i : grid0.Coords) : Fin 2 → Nat :=
  let arg0 : BitVec 32 := BitVec.ofNat 32 (i 0).val
  let arg1 : BitVec 32 := BitVec.ofNat 32 (i 1).val
  let c50_i32 : BitVec 32 := 50#32
  let v0 : BitVec 32 := Scalar.muli arg0 c50_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c50_i32 : BitVec 32 := 50#32
  let v0 : BitVec 32 := Scalar.muli arg0 c50_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S10000x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x64x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev grid1 : Pipeline.Grid := ⟨1, ![100], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x1 .i32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S10000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  shapeCasts_S1000000_S1000000x1 : S1000000.ShapeCasts S1000000x1
  inb_S1x64x128_S1x64x128_0_0_0 : ∀ a, (![0, 0, 0] : Fin 3 → Nat) a + S1x64x128.size a ≤ S1x64x128.size a
  h_S1x64x128 : 0 < S1x64x128.numel
  inb_S1x1x64_S1x1x64_0_0_0 : ∀ a, (![0, 0, 0] : Fin 3 → Nat) a + S1x1x64.size a ≤ S1x1x64.size a
  h_S1x1x64 : 0 < S1x1x64.numel
  inb_S10000x1_S10000x1_0_0 : ∀ a, (![0, 0] : Fin 2 → Nat) a + S10000x1.size a ≤ S10000x1.size a
  h_S10000x1 : 0 < S10000x1.numel
  shapeCasts_S10000x1_S10000x1 : S10000x1.ShapeCasts S10000x1
  iota_S10000x64_d1_w32 : S10000x64.Iotas .tc 32 [1]
  broadcasts_S10000x1_S10000x64 : S10000x1.Broadcasts S10000x64
  inb_S10000x128_S10000x128_0_0 : ∀ a, (![0, 0] : Fin 2 → Nat) a + S10000x128.size a ≤ S10000x128.size a
  h_S10000x128 : 0 < S10000x128.numel
  bitsLt_bf16_f32 : FTy.bits .bf16 < FTy.bits .f32
  natLt_1_32 : 1 < 32
  reduces_S10000x64_S64 : S10000x64.Reduces [0] S64
  shapeCasts_S64_S1x64 : S64.ShapeCasts S1x64
  shapeCasts_S1x64x128_S1x64x128 : S1x64x128.ShapeCasts S1x64x128
  shapeCasts_S64x128_S1x64x128 : S64x128.ShapeCasts S1x64x128
  shapeCasts_S1x1x64_S1x1x64 : S1x1x64.ShapeCasts S1x1x64
  shapeCasts_S1x64_S1x1x64 : S1x64.ShapeCasts S1x1x64
  reducesTo_S2x64x128_S64x128_d0 : S2x64x128.ReducesTo [0] S64x128
  h_S_ : 0 < S_.numel
  reducesTo_S2x1x64_S1x64_d0 : S2x1x64.ReducesTo [0] S1x64
  shapeCasts_S1x64_S64 : S1x64.ShapeCasts S64
  bcast_S_S64 : S_.BroadcastsInDim S64 (![] : Fin 0 → Fin S64.rank)
  bcast_S64_S64x1_0 : S64.BroadcastsInDim S64x1 (![0] : Fin 1 → Fin S64x1.rank)
  bcast_S64x1_S64x128_0_1 : S64x1.BroadcastsInDim S64x128 (![0, 1] : Fin 2 → Fin S64x128.rank)
  bcast_S128_S1x128_1 : S128.BroadcastsInDim S1x128 (![1] : Fin 1 → Fin S1x128.rank)
  bcast_S1x128_S64x128_0_1 : S1x128.BroadcastsInDim S64x128 (![0, 1] : Fin 2 → Fin S64x128.rank)
  bcast_S_S64x128 : S_.BroadcastsInDim S64x128 (![] : Fin 0 → Fin S64x128.rank)
  inb_S64x128_S64x128_0_0 : ∀ a, (![0, 0] : Fin 2 → Nat) a + S64x128.size a ≤ S64x128.size a
  h_S64x128 : 0 < S64x128.numel
  shapeCasts_S64x128_S64x128 : S64x128.ShapeCasts S64x128
  dot_S10000x64_S10000x128_S64x128_0_0_1_1_n_n_wf : DotDims.WF S10000x64 S10000x128 S64x128 [0] [0] [1] [1] [] []
  dot_S64x128_S128x128_S64x128_1_0_0_1_n_n_wf : DotDims.WF S64x128 S128x128 S64x128 [1] [0] [0] [1] [] []
  dot_S10000x64_S64x128_S10000x128_1_0_0_1_n_n_wf : DotDims.WF S10000x64 S64x128 S10000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S1000000x128.size a
  hwx0_0 : ∀ i : grid0.Coords, EltTy.bits .f32 = 32 ∨ (Rect.block (s := S1000000x128) S10000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S10000x1.size a ≤ S1000000x1.size a
  hwx0_1 : ∀ i : grid0.Coords, EltTy.bits .i32 = 32 ∨ (Rect.block (s := S1000000x1) S10000x1.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x64x128.size a ≤ S2x64x128.size a
  hwx0_2 : ∀ i : grid0.Coords, EltTy.bits .f32 = 32 ∨ (Rect.block (s := S2x64x128) S1x64x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x64.size a ≤ S2x1x64.size a
  hwx0_3 : ∀ i : grid0.Coords, EltTy.bits .f32 = 32 ∨ (Rect.block (s := S2x1x64) S1x1x64.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x128.size a ≤ S1000000x128.size a
  hwx1_0 : ∀ i : grid1.Coords, EltTy.bits .f32 = 32 ∨ (Rect.block (s := S1000000x128) S10000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x1.size a ≤ S1000000x1.size a
  hwx1_1 : ∀ i : grid1.Coords, EltTy.bits .i32 = 32 ∨ (Rect.block (s := S1000000x1) S10000x1.size (cc1_transform_1 i) (hinb1_1 i)).WholeWords (EltTy.packing .i32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x128.size a ≤ S64x128.size a
  hwx1_2 : ∀ i : grid1.Coords, EltTy.bits .f32 = 32 ∨ (Rect.block (s := S64x128) S64x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S10000x128.size a ≤ S1000000x128.size a
  hwx1_3 : ∀ i : grid1.Coords, EltTy.bits .f32 = 32 ∨ (Rect.block (s := S1000000x128) S10000x128.size (cc1_transform_3 i) (hinb1_3 i)).WholeWords (EltTy.packing .f32)

variable [Facts₀]

def dot_S10000x64_S10000x128_S64x128_0_0_1_1_n_n : DotDims S10000x64 S10000x128 S64x128 where
  lhsContracting := [0]
  rhsContracting := [0]
  lhsNonContracting := [1]
  rhsNonContracting := [1]
  lhsBatch := []
  rhsBatch := []
  wf := dot_S10000x64_S10000x128_S64x128_0_0_1_1_n_n_wf
def dot_S64x128_S128x128_S64x128_1_0_0_1_n_n : DotDims S64x128 S128x128 S64x128 where
  lhsContracting := [1]
  rhsContracting := [0]
  lhsNonContracting := [0]
  rhsNonContracting := [1]
  lhsBatch := []
  rhsBatch := []
  wf := dot_S64x128_S128x128_S64x128_1_0_0_1_n_n_wf
def dot_S10000x64_S64x128_S10000x128_1_0_0_1_n_n : DotDims S10000x64 S64x128 S10000x128 where
  lhsContracting := [1]
  rhsContracting := [0]
  lhsNonContracting := [0]
  rhsNonContracting := [1]
  lhsBatch := []
  rhsBatch := []
  wf := dot_S10000x64_S64x128_S10000x128_1_0_0_1_n_n_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S10000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1_0) S1x64x128.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1_1) S1x1x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg0) S10000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0) S10000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v24) S64x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v25) S10000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S1000000x128 : Shape := ⟨2, ![1000000, 128]⟩
abbrev S1000000 : Shape := ⟨1, ![1000000]⟩
abbrev S128x128 : Shape := ⟨2, ![128, 128]⟩
abbrev S128 : Shape := ⟨1, ![128]⟩
abbrev S_ : Shape := ⟨0, ![]⟩
abbrev S64x128 : Shape := ⟨2, ![64, 128]⟩
abbrev S1000000x1 : Shape := ⟨2, ![1000000, 1]⟩
abbrev S64 : Shape := ⟨1, ![64]⟩
abbrev S64x1 : Shape := ⟨2, ![64, 1]⟩
abbrev S1x128 : Shape := ⟨2, ![1, 128]⟩

abbrev nBuf : Space → Nat
  | .hbm => 51
  | .vmem => 0
  | .smem => 0
  | _ => 0

abbrev bufTy : (tb : Table) → Fin (tcTables nBuf tb) → BufTy
  | .hbm, ⟨0, _⟩ => ⟨S1000000x128, .f32⟩
  | .hbm, ⟨1, _⟩ => ⟨S1000000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S_, .f32⟩
  | .hbm, ⟨7, _⟩ => ⟨S64x128, .f32⟩
  | .hbm, ⟨8, _⟩ => ⟨S1000000x1, .i32⟩
  | .hbm, ⟨9, _⟩ => ⟨S64x128, .f32⟩
  | .hbm, ⟨10, _⟩ => ⟨S_, .f32⟩
  | .hbm, ⟨11, _⟩ => ⟨S1000000, .f32⟩
  | .hbm, ⟨12, _⟩ => ⟨S_, .f32⟩
  | .hbm, ⟨13, _⟩ => ⟨S64, .f32⟩
  | .hbm, ⟨14, _⟩ => ⟨S1000000x1, .i32⟩
  | .hbm, ⟨15, _⟩ => ⟨S64, .f32⟩
  | .hbm, ⟨16, _⟩ => ⟨S_, .f32⟩
  | .hbm, ⟨17, _⟩ => ⟨S64, .f32⟩
  | .hbm, ⟨18, _⟩ => ⟨S64, .f32⟩
  | .hbm, ⟨19, _⟩ => ⟨S64x1, .f32⟩
  | .hbm, ⟨20, _⟩ => ⟨S64x128, .f32⟩
  | .hbm, ⟨21, _⟩ => ⟨S64x128, .f32⟩
  | .hbm, ⟨22, _⟩ => ⟨S64x128, .f32⟩
  | .hbm, ⟨23, _⟩ => ⟨S1x128, .f32⟩
  | .hbm, ⟨24, _⟩ => ⟨S64x128, .f32⟩
  | .hbm, ⟨25, _⟩ => ⟨S64x128, .f32⟩
  | .hbm, ⟨26, _⟩ => ⟨S_, .f32⟩
  | .hbm, ⟨27, _⟩ => ⟨S64x128, .f32⟩
  | .hbm, ⟨28, _⟩ => ⟨S64x128, .f32⟩
  | .hbm, ⟨29, _⟩ => ⟨S64x128, .f32⟩
  | .hbm, ⟨30, _⟩ => ⟨S1x128, .f32⟩
  | .hbm, ⟨31, _⟩ => ⟨S64x128, .f32⟩
  | .hbm, ⟨32, _⟩ => ⟨S64x128, .f32⟩
  | .hbm, ⟨33, _⟩ => ⟨S64x128, .f32⟩
  | .hbm, ⟨34, _⟩ => ⟨S64x128, .f32⟩
  | .hbm, ⟨35, _⟩ => ⟨S_, .f32⟩
  | .hbm, ⟨36, _⟩ => ⟨S64x128, .f32⟩
  | .hbm, ⟨37, _⟩ => ⟨S64x128, .f32⟩
  | .hbm, ⟨38, _⟩ => ⟨S_, .f32⟩
  | .hbm, ⟨39, _⟩ => ⟨S64x128, .f32⟩
  | .hbm, ⟨40, _⟩ => ⟨S64x128, .f32⟩
  | .hbm, ⟨41, _⟩ => ⟨S_, .i32⟩
  | .hbm, ⟨42, _⟩ => ⟨S1000000, .i32⟩
  | .hbm, ⟨43, _⟩ => ⟨S1000000, .i1⟩
  | .hbm, ⟨44, _⟩ => ⟨S_, .i32⟩
  | .hbm, ⟨45, _⟩ => ⟨S1000000, .i32⟩
  | .hbm, ⟨46, _⟩ => ⟨S1000000, .i32⟩
  | .hbm, ⟨47, _⟩ => ⟨S1000000, .i32⟩
  | .hbm, ⟨48, _⟩ => ⟨S1000000x1, .i32⟩
  | .hbm, ⟨49, _⟩ => ⟨S1000000x128, .f32⟩
  | .hbm, ⟨50, _⟩ => ⟨S1000000x128, .f32⟩
  | _, _ => ⟨S1000000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_cst_1 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst_2 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_call0_cst : Ref sig .tc := ⟨.hbm, 26, rfl⟩
abbrev main_call0_v0 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_3 : Ref sig .tc := ⟨.hbm, 35, rfl⟩
abbrev main_v23 : Ref sig .tc := ⟨.hbm, 36, rfl⟩
abbrev main_v24 : Ref sig .tc := ⟨.hbm, 37, rfl⟩
abbrev main_cst_4 : Ref sig .tc := ⟨.hbm, 38, rfl⟩
abbrev main_v25 : Ref sig .tc := ⟨.hbm, 39, rfl⟩
abbrev main_v26 : Ref sig .tc := ⟨.hbm, 40, rfl⟩
abbrev main_c : Ref sig .tc := ⟨.hbm, 41, rfl⟩
abbrev main_v27 : Ref sig .tc := ⟨.hbm, 42, rfl⟩
abbrev main_v28 : Ref sig .tc := ⟨.hbm, 43, rfl⟩
abbrev main_c_5 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩

abbrev nD : Nat := 1
abbrev τ : Topo := Topo.v7x

variable {F : FTy → Type} [FloatOps F]

class Facts₀ : Prop where
  bcast_S_S64x128 : S_.BroadcastsInDim S64x128 (![] : Fin 0 → Fin S64x128.rank)
  bcast_S1000000_S1000000x1_0 : S1000000.BroadcastsInDim S1000000x1 (![0] : Fin 1 → Fin S1000000x1.rank)
  bcast_S_S1000000 : S_.BroadcastsInDim S1000000 (![] : Fin 0 → Fin S1000000.rank)
  bcast_S_S64 : S_.BroadcastsInDim S64 (![] : Fin 0 → Fin S64.rank)
  bcast_S64_S64x1_0 : S64.BroadcastsInDim S64x1 (![0] : Fin 1 → Fin S64x1.rank)
  bcast_S64x1_S64x128_0_1 : S64x1.BroadcastsInDim S64x128 (![0, 1] : Fin 2 → Fin S64x128.rank)
  bcast_S128_S1x128_1 : S128.BroadcastsInDim S1x128 (![1] : Fin 1 → Fin S1x128.rank)
  bcast_S1x128_S64x128_0_1 : S1x128.BroadcastsInDim S64x128 (![0, 1] : Fin 2 → Fin S64x128.rank)
  scatter_S64x128_S1000000x1_S1000000x128_1_0_0_1_wf : ScatterDims.WF S64x128 S1000000x1 S1000000x128 [1] [0] [0] 1
  scatter_S64_S1000000x1_S1000000_n_0_0_1_wf : ScatterDims.WF S64 S1000000x1 S1000000 [] [0] [0] 1
  dot_S64x128_S128x128_S64x128_1_0_0_1_n_n_wf : DotDims.WF S64x128 S128x128 S64x128 [1] [0] [0] [1] [] []
  gather_S64x128_S1000000x1_S1000000x128_1_0_n_n_0_1_1128_wf : GatherDims.WF S64x128 S1000000x1 S1000000x128 [1] [0] [] [0] [] 1 ![1, 128]

variable [Facts₀]

def scatter_S64x128_S1000000x1_S1000000x128_1_0_0_1 : ScatterDims S64x128 S1000000x1 S1000000x128 where
  updateWindowDims := [1]
  insertedWindowDims := [0]
  scatterDimsToOperandDims := [0]
  indexVectorDim := 1
  wf := scatter_S64x128_S1000000x1_S1000000x128_1_0_0_1_wf
def scatter_S64_S1000000x1_S1000000_n_0_0_1 : ScatterDims S64 S1000000x1 S1000000 where
  updateWindowDims := []
  insertedWindowDims := [0]
  scatterDimsToOperandDims := [0]
  indexVectorDim := 1
  wf := scatter_S64_S1000000x1_S1000000_n_0_0_1_wf
def dot_S64x128_S128x128_S64x128_1_0_0_1_n_n : DotDims S64x128 S128x128 S64x128 where
  lhsContracting := [1]
  rhsContracting := [0]
  lhsNonContracting := [0]
  rhsNonContracting := [1]
  lhsBatch := []
  rhsBatch := []
  wf := dot_S64x128_S128x128_S64x128_1_0_0_1_n_n_wf
def gather_S64x128_S1000000x1_S1000000x128_1_0_n_n_0_1_1128 : GatherDims S64x128 S1000000x1 S1000000x128 where
  offsetDims := [1]
  collapsedSliceDims := [0]
  operandBatchingDims := []
  startIndicesBatchingDims := []
  startIndexMap := [0]
  indexVectorDim := 1
  sliceSizes := ![1, 128]
  wf := gather_S64x128_S1000000x1_S1000000x128_1_0_n_n_0_1_1128_wf

class Facts : Prop extends Facts₀ where

variable [Facts]
-- ==== Proof.Spec.lean ====
/-
  The mathematics shared by the two programs, stated once over whole arrays of extended reals.

  A row `n` of `h` belongs to segment `s` when its id word is `s`; `onehot` is that indicator. The rows are cut
  into 100 tiles of 10000 (`rowN t r` is row `r` of tile `t`); `tileSum` / `tileCnt` add one tile's rows of a
  segment and count them, `segSum` / `segCnt` add the tiles. `gate` is the small network both programs apply to
  the segment means (mean = sum / max(count, 1); linear, relu, linear, logistic), kept as ONE term so that neither
  side ever opens it. `modulated` is the result: each row of `h` times the gate row of its segment.
-/
import Idealize.ShloMosaic.PureOps.Ideal
import Idealize.ShloMosaic.Lib.ValueIdx

noncomputable section

open scoped BigOperators

namespace Cert.SegGate

open Idealize.ShloMosaic Idealize.ShloMosaic.ValueIdx

abbrev SNxD : Shape := ⟨2, ![1000000, 128]⟩
abbrev SN : Shape := ⟨1, ![1000000]⟩
abbrev SSxD : Shape := ⟨2, ![64, 128]⟩
abbrev SS : Shape := ⟨1, ![64]⟩
abbrev SSx1 : Shape := ⟨2, ![64, 1]⟩
abbrev SDxD : Shape := ⟨2, ![128, 128]⟩
abbrev SD : Shape := ⟨1, ![128]⟩
abbrev S1xD : Shape := ⟨2, ![1, 128]⟩
abbrev S0 : Shape := ⟨0, ![]⟩

/-- The indicator of "the id word `b` names segment `s`". -/
def onehot (b : BitVec 32) (s : Fin 64) : EReal := if b = BitVec.ofNat 32 s.val then 1 else 0

/-- Row `r` of tile `t` (tiles of 10000 rows; reduced mod the row count so that it is total). -/
def rowN (t r : ℕ) : Fin 1000000 := ⟨(t * 10000 + r) % 1000000, Nat.mod_lt _ (by norm_num)⟩

/-- One tile's contribution to segment `s`, column `d`: the sum of its rows of that segment. -/
def tileSum (H : SNxD.Idx → EReal) (B : SN.Idx → BitVec 32) (t : ℕ) (s : Fin 64) (d : Fin 128) : EReal :=
  ∑ r : Fin 10000, onehot (B (ix1 (rowN t r.val))) s * H (ix2 (rowN t r.val) d)

/-- One tile's number of rows of segment `s`. -/
def tileCnt (B : SN.Idx → BitVec 32) (t : ℕ) (s : Fin 64) : EReal :=
  ∑ r : Fin 10000, onehot (B (ix1 (rowN t r.val))) s

/-- The per-segment sums of the rows of `H`. -/
def segSum (H : SNxD.Idx → EReal) (B : SN.Idx → BitVec 32) : SSxD.Idx → EReal :=
  fun i => ∑ t ∈ Finset.range 100, tileSum H B t (i 0) (i 1)

/-- The per-segment row counts. -/
def segCnt (B : SN.Idx → BitVec 32) : SS.Idx → EReal :=
  fun i => ∑ t ∈ Finset.range 100, tileCnt B t (i 0)

/-- The contraction both linear layers use: rows of the left operand against columns of the right. -/
def dd : DotDims SSxD SDxD SSxD where
  lhsContracting := [1]
  rhsContracting := [0]
  lhsNonContracting := [0]
  rhsNonContracting := [1]
  lhsBatch := []
  rhsBatch := []
  wf := by decide

/-- The gate network on the segment sums and counts: mean = sum / max(count, 1); `relu(mean · W1 + b1)`;
    then the logistic function of `· W2 + b2`, spelt `1 / (1 + exp(-x))`. -/
def gate (ss : FVec Ideal SSxD .f32) (cnt : FVec Ideal SS .f32) (W1 : FVec Ideal SDxD .f32) (b1 : FVec Ideal SD .f32)
    (W2 : FVec Ideal SDxD .f32) (b2 : FVec Ideal SD .f32) : FVec Ideal SSxD .f32 :=
  Host.divf (broadcastInDim SSxD ![] (by decide) (constant (F := Ideal) S0 .f32 0x3F800000#32))
    (addf (broadcastInDim SSxD ![] (by decide) (constant (F := Ideal) S0 .f32 0x3F800000#32))
      (Host.exp (Host.negf (addf
        (Host.dotGeneral dd none
          (maximumf
            (addf
              (Host.dotGeneral dd none
                (Host.divf ss
                  (broadcastInDim SSxD ![0, 1] (by decide)
                    (broadcastInDim SSx1 ![0] (by decide)
                      (maximumf cnt (broadcastInDim SS ![] (by decide) (constant (F := Ideal) S0 .f32 0x3F800000#32))))))
                W1)
              (broadcastInDim SSxD ![0, 1] (by decide) (broadcastInDim S1xD ![1] (by decide) b1)))
            (broadcastInDim SSxD ![] (by decide) (constant (F := Ideal) S0 .f32 0x00000000#32)))
          W2)
        (broadcastInDim SSxD ![0, 1] (by decide) (broadcastInDim S1xD ![1] (by decide) b2))))))

/-- The segment an in-range id word names. -/
def segOf (b : BitVec 32) : Fin 64 := ⟨b.toNat % 64, Nat.mod_lt _ (by norm_num)⟩

/-- The result: row `n` of `H` times the gate row `G` of its segment. -/
def modulate (H : SNxD.Idx → EReal) (B : SN.Idx → BitVec 32) (G : SSxD.Idx → EReal) : SNxD.Idx → EReal :=
  fun i => H i * G (ix2 (segOf (B (ix1 (i 0)))) (i 1))

/-- The whole function of the six arguments. -/
def modulated (H : SNxD.Idx → EReal) (B : SN.Idx → BitVec 32) (W1 : FVec Ideal SDxD .f32) (b1 : FVec Ideal SD .f32)
    (W2 : FVec Ideal SDxD .f32) (b2 : FVec Ideal SD .f32) : SNxD.Idx → EReal :=
  modulate H B (gate (segSum H B) (segCnt B) W1 b1 W2 b2)

/-- For a word below 64, "the word is the one naming segment `s`" says `s` is the segment the word names. -/
private theorem eq_ofNat_iff (b : BitVec 32) (hb : b.toNat < 64) (s : Fin 64) :
    b = BitVec.ofNat 32 s.val ↔ s = segOf b := by
  have hs : s.val < 64 := s.isLt
  have e : (BitVec.ofNat 32 s.val).toNat = s.val := by
    rw [BitVec.toNat_ofNat]; exact Nat.mod_eq_of_lt (by omega)
  constructor
  · intro h
    apply Fin.ext
    show s.val = b.toNat % 64
    rw [h, e]; omega
  · intro h
    apply BitVec.eq_of_toNat_eq
    rw [e, h]
    show b.toNat = b.toNat % 64
    omega

/-- A gate row picked by the indicators: the sum over the segments of indicator × gate row is the row of the
    segment the word names, when it names one. -/
theorem sum_onehot_mul (b : BitVec 32) (hb : b.toNat < 64) (g : Fin 64 → EReal) :
    ∑ s : Fin 64, onehot b s * g s = g (segOf b) := by
  rw [Finset.sum_eq_single (segOf b)]
  · rw [onehot, if_pos ((eq_ofNat_iff b hb _).2 rfl), one_mul]
  · intro s _ hs
    rw [onehot, if_neg (fun h => hs ((eq_ofNat_iff b hb s).1 h)), zero_mul]
  · intro h
    exact absurd (Finset.mem_univ _) h

/-- A sum over all rows is the sum over the tiles of the sums over a tile's rows. -/
theorem sum_rows {M : Type} [AddCommMonoid M] (f : Fin 1000000 → M) :
    ∑ n : Fin 1000000, f n = ∑ t ∈ Finset.range 100, ∑ r : Fin 10000, f (rowN t r.val) := by
  calc ∑ n : Fin 1000000, f n
      = ∑ x : Fin 100 × Fin 10000, f (rowN x.1.val x.2.val) := by
        -- the pair (t, r) is sent to row r + 10000 t, a bijection onto the 100 · 10000 rows
        refine (Fintype.sum_equiv
          (finProdFinEquiv.trans (finCongr (by norm_num : 100 * 10000 = 1000000))) _ _ ?_).symm
        rintro ⟨t, r⟩
        congr 1
        apply Fin.ext
        have ht := t.isLt
        have hr := r.isLt
        simp only [rowN, Equiv.trans_apply, finCongr_apply, Fin.coe_cast, finProdFinEquiv_apply_val]
        omega
    _ = ∑ t : Fin 100, ∑ r : Fin 10000, f (rowN t.val r.val) :=
        Fintype.sum_prod_type' (fun (t : Fin 100) (r : Fin 10000) => f (rowN t.val r.val))
    _ = ∑ t ∈ Finset.range 100, ∑ r : Fin 10000, f (rowN t r.val) :=
        (Finset.sum_range (fun t => ∑ r : Fin 10000, f (rowN t r.val))).symm

end Cert.SegGate

end
-- ==== Proof.Reduce.lean ====
/-
  What the segment-reduction kernel leaves in its two outputs.

  The grid is 2 halves × 50 tiles; point `t` (row-major) reads tile `t`: rows `10000 t … 10000 t + 9999` of `h` and of the
  id column. At the first tile of a half the outputs are reset to zero, and every tile adds its per-segment sums (the
  transposed one-hot matrix times the tile) and its per-segment counts (the column sums of the one-hot matrix). So after
  point `t` the sums output holds the tiles of this half up to `t`, and the block written back at the half's last tile
  holds the whole half.
-/
import proofs.«410420_j8383776162380_3_alg».proof.Proof.Gen.KernelIdeal.Frame
import proofs.«410420_j8383776162380_3_alg».proof.Proof.Spec
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic
import Mathlib.Algebra.BigOperators.Intervals

set_option maxRecDepth 16384

noncomputable section

open scoped BigOperators

namespace Cert.KernelIdeal.SegReduce

open Cert.KernelIdeal Cert.KernelIdeal.Gen Cert.SegGate
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-! ## What one run of the body leaves in each output

Each case's stores cover the whole output block, so what is left is the last store's value: the running block plus
this tile's contribution. At a half's first tile the block is first set to zero, read back, and then added to. -/

section Pieces
variable {F : FTy → Type} [FloatOps F]

theorem offsets3_zero : (![0, 0, 0] : Fin 3 → Nat) = fun _ => 0 := funext fun a => by fin_cases a <;> rfl
theorem offsets2_zero : (![0, 0] : Fin 2 → Nat) = fun _ => 0 := funext fun a => by fin_cases a <;> rfl

/-- Away from a half's first tile the sums block becomes the old block plus the tile's per-segment sums. -/
theorem piece_B_2 (c : Dev nD) (i : grid0.Coords) (a2 : Memref sig .tc .vmem S10000x128 .f32) (h2 : a2.IsWhole) (a3 : Memref sig .tc .vmem S10000x1 .i32) (h3 : a3.IsWhole) (a4 : Memref sig .tc .vmem S1x64x128 .f32) (h4 : a4.IsWhole) (a5 : Memref sig .tc .vmem S1x1x64 .f32) (h5 : a5.IsWhole) (hc : ¬cond0_0 i)
    (x0 : Vec F S10000x128 .f32) (x1 : Vec F S10000x1 .i32) (xo2 : Vec F S1x64x128 .f32) (xo3 : Vec F S1x1x64 .f32) :
    out0_B_2 c i a2 h2 a3 h3 a4 h4 a5 h5 hc x0 x1 xo2 xo3 = k0_pay4 x1 x0 xo2 := by
  unfold out0_B_2
  rw [View.read_writes_eq_canon _ _ _ (cover0_B_2 c i a2 h2 a3 h3 a4 h4 a5 h5 hc x0 x1 xo2 xo3)]
  unfold kernelRun0_B
  dsimp only
  sl_unfold_words
  rw [View.canon_unit_zero offsets3_zero]
  simp only [View.readAt_eq_ld, h2.read_unread, h3.read_unread, h4.read_unread, View.ld_unit_zero (S := S1x64x128) offsets3_zero,
    View.ld_unit_zero (S := S10000x128) offsets2_zero, View.ld_unit_zero (S := S10000x1) offsets2_zero]

/-- Away from a half's first tile the counts block becomes the old block plus the tile's per-segment counts. -/
theorem piece_B_3 (c : Dev nD) (i : grid0.Coords) (a2 : Memref sig .tc .vmem S10000x128 .f32) (h2 : a2.IsWhole) (a3 : Memref sig .tc .vmem S10000x1 .i32) (h3 : a3.IsWhole) (a4 : Memref sig .tc .vmem S1x64x128 .f32) (h4 : a4.IsWhole) (a5 : Memref sig .tc .vmem S1x1x64 .f32) (h5 : a5.IsWhole) (hc : ¬cond0_0 i)
    (x0 : Vec F S10000x128 .f32) (x1 : Vec F S10000x1 .i32) (xo2 : Vec F S1x64x128 .f32) (xo3 : Vec F S1x1x64 .f32) :
    out0_B_3 c i a2 h2 a3 h3 a4 h4 a5 h5 hc x0 x1 xo2 xo3 = k0_pay5 x1 xo3 := by
  unfold out0_B_3
  rw [View.read_writes_eq_canon _ _ _ (cover0_B_3 c i a2 h2 a3 h3 a4 h4 a5 h5 hc x0 x1 xo2 xo3)]
  unfold kernelRun0_B
  dsimp only
  sl_unfold_words
  rw [View.canon_unit_zero offsets3_zero]
  simp only [View.readAt_eq_ld, h3.read_unread, h5.read_unread, View.ld_unit_zero (S := S1x1x64) offsets3_zero,
    View.ld_unit_zero (S := S10000x1) offsets2_zero]

/-- At a half's first tile the sums block becomes zero plus the tile's per-segment sums. -/
theorem piece_A_2 (c : Dev nD) (i : grid0.Coords) (a2 : Memref sig .tc .vmem S10000x128 .f32) (h2 : a2.IsWhole) (a3 : Memref sig .tc .vmem S10000x1 .i32) (h3 : a3.IsWhole) (a4 : Memref sig .tc .vmem S1x64x128 .f32) (h4 : a4.IsWhole) (a5 : Memref sig .tc .vmem S1x1x64 .f32) (h5 : a5.IsWhole) (hc : cond0_0 i)
    (x0 : Vec F S10000x128 .f32) (x1 : Vec F S10000x1 .i32) :
    out0_A_2 c i a2 h2 a3 h3 a4 h4 a5 h5 hc x0 x1 = k0_pay4 x1 x0 k0_pay1 := by
  unfold out0_A_2
  rw [View.read_writes_eq_canon _ _ _ (cover0_A_2 c i a2 h2 a3 h3 a4 h4 a5 h5 hc x0 x1)]
  unfold kernelRun0_A
  dsimp only
  sl_unfold_words
  rw [View.canon_cons_unit_zero (S := S1x64x128) offsets3_zero, View.readCov_unit_zero (S := S1x64x128) _ offsets3_zero]
  simp only [View.readAt_eq_ld, h2.read_unread, h3.read_unread, View.ld_unit_zero (S := S10000x128) offsets2_zero,
    View.ld_unit_zero (S := S10000x1) offsets2_zero]

/-- At a half's first tile the counts block becomes zero plus the tile's per-segment counts. -/
theorem piece_A_3 (c : Dev nD) (i : grid0.Coords) (a2 : Memref sig .tc .vmem S10000x128 .f32) (h2 : a2.IsWhole) (a3 : Memref sig .tc .vmem S10000x1 .i32) (h3 : a3.IsWhole) (a4 : Memref sig .tc .vmem S1x64x128 .f32) (h4 : a4.IsWhole) (a5 : Memref sig .tc .vmem S1x1x64 .f32) (h5 : a5.IsWhole) (hc : cond0_0 i)
    (x0 : Vec F S10000x128 .f32) (x1 : Vec F S10000x1 .i32) :
    out0_A_3 c i a2 h2 a3 h3 a4 h4 a5 h5 hc x0 x1 = k0_pay5 x1 k0_pay2 := by
  unfold out0_A_3
  rw [View.read_writes_eq_canon _ _ _ (cover0_A_3 c i a2 h2 a3 h3 a4 h4 a5 h5 hc x0 x1)]
  unfold kernelRun0_A
  dsimp only
  sl_unfold_words
  rw [View.canon_cons_unit_zero (S := S1x1x64) offsets3_zero, View.readCov_unit_zero (S := S1x1x64) _ offsets3_zero]
  simp only [View.readAt_eq_ld, h3.read_unread, View.ld_unit_zero (S := S10000x1) offsets2_zero]

end Pieces

/-! ## The tile's contribution, entry by entry

The mask entry at row `r`, column `s` compares the row's id word with the column number; widened and converted it is
the indicator `onehot`. The matrix product contracts the 10000 rows of the tile, so its entry `(s, d)` is the sum over
the rows of indicator × the row's column `d`; the column sums of the mask count the rows of each segment. -/

section Payload

/-- A one-bit comparison word, widened and read as a number, is the indicator of the equality. -/
theorem indicator_word (x : BitVec 32) (s : Fin 64) :
    (FloatOps.sitofp (F := Ideal) .f32 ((IntOp.cmpi .eq x (BitVec.ofNat 32 s.val)).setWidth 32) : EReal) = onehot x s := by
  show (((((IntOp.cmpi .eq x (BitVec.ofNat 32 s.val)).setWidth 32).toInt : ℤ) : ℝ) : EReal) = _
  unfold onehot IntOp.cmpi
  by_cases h : x = BitVec.ofNat 32 s.val
  · rw [if_pos h]
    have hb : (x == BitVec.ofNat 32 s.val) = true := by rw [h]; exact beq_self_eq_true _
    rw [hb]
    have e : ((BitVec.ofBool true).setWidth 32).toInt = 1 := by decide
    rw [e]; norm_num
  · rw [if_neg h]
    have hb : (x == BitVec.ofNat 32 s.val) = false := by
      rcases hq : (x == BitVec.ofNat 32 s.val) with _ | _
      · rfl
      · exact absurd (eq_of_beq hq) h
    rw [hb]
    have e : ((BitVec.ofBool false).setWidth 32).toInt = 0 := by decide
    rw [e]; norm_num

/-- The mask at row `r`, column `s`: the row's id word compared with the column number. -/
theorem mask_apply (x1 : Vec Ideal S10000x1 .i32) (r : Fin 10000) (s : Fin 64) :
    k0_pay3 (F := Ideal) x1 (ix2 r s) = IntOp.cmpi .eq (x1 (ix2 r 0)) (BitVec.ofNat 32 s.val) := by
  unfold k0_pay3
  have e1 : broadcastTo S10000x64 (shapeCast S10000x1 x1 shapeCasts_S10000x1_S10000x1) broadcasts_S10000x1_S10000x64 (ix2 r s)
      = x1 (ix2 r 0) := by
    refine (broadcastTo_apply _ _ (ix2 r s) (ix2 r 0) ?_).trans ?_
    · intro a
      match a with
      | ⟨0, _⟩ => rfl
      | ⟨1, _⟩ => rfl
    · exact congrFun (shapeCast_self x1 _) _
  have e2 : iota .tc S10000x64 32 [1] iota_S10000x64_d1_w32 (ix2 r s) = BitVec.ofNat 32 s.val :=
    iota_single_apply .tc S10000x64 32 1 _ (ix2 r s)
  show IntOp.cmpi .eq _ _ = _
  rw [e1, e2]

end Payload

section Contraction

/-- The left operand of the product is read at (row, segment): its contracted axis is the row axis. -/
theorem lhs_rows_0 (j : S64x128.Idx) (q : dot_S10000x64_S10000x128_S64x128_0_0_1_1_n_n.contr.Idx) :
    (dot_S10000x64_S10000x128_S64x128_0_0_1_1_n_n.lhsIdx j q 0).val = (q ⟨0, by decide⟩).val :=
  dot_S10000x64_S10000x128_S64x128_0_0_1_1_n_n.lhsIdx_val_of_single rfl j q
theorem lhs_rows_1 (j : S64x128.Idx) (q : dot_S10000x64_S10000x128_S64x128_0_0_1_1_n_n.contr.Idx) :
    (dot_S10000x64_S10000x128_S64x128_0_0_1_1_n_n.lhsIdx j q 1).val = (j 0).val := by
  unfold DotDims.lhsIdx
  rw [dif_neg (show ¬(1 : Fin S10000x64.rank) ∈ dot_S10000x64_S10000x128_S64x128_0_0_1_1_n_n.lhsBatch by decide), dif_pos (show (1 : Fin S10000x64.rank) ∈ dot_S10000x64_S10000x128_S64x128_0_0_1_1_n_n.lhsNonContracting by decide)]
  rfl
/-- The right operand is read at (row, column). -/
theorem rhs_rows_0 (j : S64x128.Idx) (q : dot_S10000x64_S10000x128_S64x128_0_0_1_1_n_n.contr.Idx) :
    (dot_S10000x64_S10000x128_S64x128_0_0_1_1_n_n.rhsIdx j q 0).val = (q ⟨0, by decide⟩).val :=
  dot_S10000x64_S10000x128_S64x128_0_0_1_1_n_n.rhsIdx_val_of_single rfl j q
theorem rhs_rows_1 (j : S64x128.Idx) (q : dot_S10000x64_S10000x128_S64x128_0_0_1_1_n_n.contr.Idx) :
    (dot_S10000x64_S10000x128_S64x128_0_0_1_1_n_n.rhsIdx j q 1).val = (j 1).val := by
  unfold DotDims.rhsIdx
  rw [dif_neg (show ¬(1 : Fin S10000x128.rank) ∈ dot_S10000x64_S10000x128_S64x128_0_0_1_1_n_n.rhsBatch by decide), dif_pos (show (1 : Fin S10000x128.rank) ∈ dot_S10000x64_S10000x128_S64x128_0_0_1_1_n_n.rhsNonContracting by decide)]
  rfl

/-- The sums block after a tile: the block before plus, at segment `s` and column `d`, the sum over the tile's rows of
    indicator × entry. -/
theorem sums_step_apply (x1 : Vec Ideal S10000x1 .i32) (x0 : FVec Ideal S10000x128 .f32) (acc : FVec Ideal S1x64x128 .f32)
    (s : Fin 64) (d : Fin 128) :
    k0_pay4 (F := Ideal) x1 x0 acc (ix3 0 s d)
      = acc (ix3 0 s d) + ∑ r : Fin 10000, onehot (x1 (ix2 r 0)) s * x0 (ix2 r d) := by
  unfold k0_pay4
  refine congrArg₂ (· + ·) (congrFun (shapeCast_self acc _) _) ?_
  refine (shapeCast_addUnit_apply ![64, 128] _ _ (ix3 0 s d)).trans ?_
  have ej : (fun a : Fin 2 => (ix3 (0 : Fin 1) s d) a.succ) = ix2 s d := funext fun a => by
    match a with
    | ⟨0, _⟩ => rfl
    | ⟨1, _⟩ => rfl
  rw [ej]
  refine (Ideal.matmul_constant_zero_apply dot_S10000x64_S10000x128_S64x128_0_0_1_1_n_n none _ _ (ix2 s d)).trans ?_
  rw [← Equiv.sum_comp (contrEquiv1 dot_S10000x64_S10000x128_S64x128_0_0_1_1_n_n 10000 rfl rfl).symm]
  refine Finset.sum_congr rfl fun k _ => ?_
  have hk := contrEquiv1_symm_val dot_S10000x64_S10000x128_S64x128_0_0_1_1_n_n 10000 rfl rfl k
  have el : dot_S10000x64_S10000x128_S64x128_0_0_1_1_n_n.lhsIdx (ix2 s d) ((contrEquiv1 dot_S10000x64_S10000x128_S64x128_0_0_1_1_n_n 10000 rfl rfl).symm k) = ix2 k s := funext fun a => Fin.ext (by
    match a with
    | ⟨0, _⟩ => exact (lhs_rows_0 _ _).trans hk
    | ⟨1, _⟩ => exact lhs_rows_1 _ _)
  have er : dot_S10000x64_S10000x128_S64x128_0_0_1_1_n_n.rhsIdx (ix2 s d) ((contrEquiv1 dot_S10000x64_S10000x128_S64x128_0_0_1_1_n_n 10000 rfl rfl).symm k) = ix2 k d := funext fun a => Fin.ext (by
    match a with
    | ⟨0, _⟩ => exact (rhs_rows_0 _ _).trans hk
    | ⟨1, _⟩ => exact rhs_rows_1 _ _)
  rw [el, er]
  refine congrArg₂ (· * ·) ?_ rfl
  show FloatOps.sitofp (F := Ideal) .f32 ((k0_pay3 (F := Ideal) x1 (ix2 k s)).setWidth 32) = _
  rw [mask_apply]
  exact indicator_word _ _

/-- The column sums of a 10000 × 64 matrix, read at a column: the sum down the column. -/
theorem colsum_apply (src : FVec Ideal S10000x64 .f32) (hφ : FKind.Formats .f32)
    (hacc : (0x00000000#32 : BitVec 32) = FKind.add.neutral .f32 hφ) (s : Fin 64) :
    multiReduction (F := Ideal) .add [0] S64 src 0x00000000#32 reduces_S10000x64_S64 hφ hacc (ix1 s)
      = ∑ k : Fin 10000, src (ix2 k s) := by
  refine (Ideal.multiReduction_add_single src 0x00000000#32 reduces_S10000x64_S64 hφ hacc (ix1 s)).trans ?_
  refine Finset.sum_congr rfl fun k _ => congrArg src (funext fun a => Fin.ext ?_)
  match a with
  | ⟨0, _⟩ => rfl
  | ⟨1, _⟩ => rfl

/-- The counts block after a tile: the block before plus, at segment `s`, the number of the tile's rows of that segment. -/
theorem counts_step_apply (x1 : Vec Ideal S10000x1 .i32) (acc : FVec Ideal S1x1x64 .f32) (s : Fin 64) :
    k0_pay5 (F := Ideal) x1 acc (ix3 0 0 s) = acc (ix3 0 0 s) + ∑ r : Fin 10000, onehot (x1 (ix2 r 0)) s := by
  unfold k0_pay5
  refine congrArg₂ (· + ·) (congrFun (shapeCast_self acc _) _) ?_
  refine (shapeCast_addUnit_apply ![1, 64] _ _ (ix3 0 0 s)).trans ?_
  have ej : (fun a : Fin 2 => (ix3 (0 : Fin 1) (0 : Fin 1) s) a.succ) = ix2 (0 : Fin 1) s := funext fun a => by
    match a with
    | ⟨0, _⟩ => rfl
    | ⟨1, _⟩ => rfl
  rw [ej]
  refine (shapeCast_addUnit_apply ![64] _ _ (ix2 (0 : Fin 1) s)).trans ?_
  have ej' : (fun a : Fin 1 => (ix2 (0 : Fin 1) s) a.succ) = ix1 s := funext fun a => by
    match a with
    | ⟨0, _⟩ => rfl
  rw [ej']
  refine (colsum_apply _ _ _ s).trans ?_
  refine Finset.sum_congr rfl fun k _ => ?_
  show FloatOps.sitofp (F := Ideal) .f32 ((k0_pay3 (F := Ideal) x1 (ix2 k s)).setWidth 32) = _
  rw [mask_apply]
  exact indicator_word _ _

end Contraction

/-! ## A tile's blocks, in terms of the whole arrays

Point `t` reads tile `t` of `h` and of the id column (block index `(t, 0)`), and writes block `t / 50` of each output.
An entry of a block sits in its array at block index × block size + the entry's own coordinate. -/

section Blocks

/-- Which block each window is on at point `t`. -/
theorem index_facts : ∀ t : Fin cfg0.N,
    win0_0.index t 0 = t.val ∧ win0_0.index t 1 = 0 ∧ win0_1.index t 0 = t.val ∧ win0_1.index t 1 = 0
    ∧ win0_2.index t 0 = t.val / 50 ∧ win0_2.index t 1 = 0 ∧ win0_2.index t 2 = 0
    ∧ win0_3.index t 0 = t.val / 50 ∧ win0_3.index t 1 = 0 ∧ win0_3.index t 2 = 0 :=
  (by decide +kernel : ∀ t : Fin grid0.N,
    win0_0.index t 0 = t.val ∧ win0_0.index t 1 = 0 ∧ win0_1.index t 0 = t.val ∧ win0_1.index t 1 = 0
    ∧ win0_2.index t 0 = t.val / 50 ∧ win0_2.index t 1 = 0 ∧ win0_2.index t 2 = 0
    ∧ win0_3.index t 0 = t.val / 50 ∧ win0_3.index t 1 = 0 ∧ win0_3.index t 2 = 0)

/-- The tile of `h` and of the id column at point `t`, and the two whole arrays, at their literal types. -/
abbrev hblk (c : Dev nD) (t : Fin cfg0.N) : Vec Ideal S10000x128 .f32 := iblk0 V c 0 t
abbrev idblk (c : Dev nD) (t : Fin cfg0.N) : Vec Ideal S10000x1 .i32 := iblk0 V c 1 t
abbrev harr (c : Dev nD) : Vec Ideal S1000000x128 .f32 := V c main_arg0
abbrev idarr (c : Dev nD) : Vec Ideal S1000000x1 .i32 := V c main_v0

/-- Row `r` of tile `t` of `h` is row `10000 t + r` of `h`. -/
theorem hblk_apply (c : Dev nD) (t : Fin cfg0.N) (r : Fin 10000) (d : Fin 128) (n : Fin 1000000)
    (hn : n.val = t.val * 10000 + r.val) : hblk V c t (ix2 r d) = harr V c (ix2 n d) := by
  unfold hblk harr iblk0
  rw [View.read_apply]
  show V c main_arg0 _ = V c main_arg0 _
  congr 1
  funext a
  apply Fin.ext
  match a with
  | ⟨0, _⟩ => show win0_0.index t 0 * 10000 + 1 * r.val = n.val; rw [(index_facts t).1, hn]; omega
  | ⟨1, _⟩ => show win0_0.index t 1 * 128 + 1 * d.val = d.val; rw [(index_facts t).2.1]; omega

/-- Row `r` of tile `t` of the id column is row `10000 t + r` of the id column. -/
theorem idblk_apply (c : Dev nD) (t : Fin cfg0.N) (r : Fin 10000) (n : Fin 1000000)
    (hn : n.val = t.val * 10000 + r.val) : idblk V c t (ix2 r 0) = idarr V c (ix2 n 0) := by
  unfold idblk idarr iblk0
  rw [View.read_apply]
  show V c main_v0 _ = V c main_v0 _
  congr 1
  funext a
  apply Fin.ext
  match a with
  | ⟨0, _⟩ => show win0_1.index t 0 * 10000 + 1 * r.val = n.val; rw [(index_facts t).2.2.1, hn]; omega
  | ⟨1, _⟩ => show win0_1.index t 1 * 1 + 1 * 0 = 0; rw [(index_facts t).2.2.2.1]

/-- Inside the grid, row `r` of tile `t` is row `10000 t + r`: nothing wraps. -/
theorem rowN_val (t : Fin cfg0.N) (r : Fin 10000) : (rowN t.val r.val).val = t.val * 10000 + r.val := by
  have hN : t.val < 100 := lt_of_lt_of_eq t.isLt N_0
  have hr : r.val < 10000 := r.isLt
  show (t.val * 10000 + r.val) % 1000000 = _
  exact Nat.mod_eq_of_lt (by omega)

variable (c : Dev nD) (H : SNxD.Idx → EReal) (B : SN.Idx → BitVec 32)
  (hH : ∀ i : S1000000x128.Idx, (V c main_arg0 : S1000000x128.Idx → EReal) i = H i)
  (hB : ∀ n : Fin 1000000, (V c main_v0 : S1000000x1.Idx → BitVec 32) (ix2 n 0) = B (ix1 n))

include hH hB in
/-- The tile's per-segment sums, read off the blocks, are the specification's. -/
theorem tile_sum_eq (t : Fin cfg0.N) (s : Fin 64) (d : Fin 128) :
    ∑ r : Fin 10000, onehot (idblk V c t (ix2 r 0)) s * hblk V c t (ix2 r d) = tileSum H B t.val s d := by
  unfold tileSum
  refine Finset.sum_congr rfl fun r _ => ?_
  rw [hblk_apply V c t r d (rowN t.val r.val) (rowN_val t r), idblk_apply V c t r (rowN t.val r.val) (rowN_val t r)]
  exact congrArg₂ (fun a b => onehot a s * b) (hB _) (hH _)

include hB in
/-- The tile's per-segment counts, read off the id block, are the specification's. -/
theorem tile_cnt_eq (t : Fin cfg0.N) (s : Fin 64) :
    ∑ r : Fin 10000, onehot (idblk V c t (ix2 r 0)) s = tileCnt B t.val s := by
  unfold tileCnt
  refine Finset.sum_congr rfl fun r _ => ?_
  rw [idblk_apply V c t r (rowN t.val r.val) (rowN_val t r)]
  exact congrArg (fun a => onehot a s) (hB _)

end Blocks

/-! ## The running blocks, point by point

At the first tile of a half the blocks hold that tile's contribution alone (zero plus it); at any other tile, what the
tile before left plus this tile's. So after point `n` they hold the tiles `50 (n / 50) … n` of the half `n` is in. -/

section Running

variable (c : Dev nD) (H : SNxD.Idx → EReal) (B : SN.Idx → BitVec 32)
  (hH : ∀ i : S1000000x128.Idx, (V c main_arg0 : S1000000x128.Idx → EReal) i = H i)
  (hB : ∀ n : Fin 1000000, (V c main_v0 : S1000000x1.Idx → BitVec 32) (ix2 n 0) = B (ix1 n))

/-- The zero blocks a half starts from. -/
theorem zero_sums_apply (y : S1x64x128.Idx) : (k0_pay1 (F := Ideal) : FVec Ideal S1x64x128 .f32) y = 0 :=
  Ideal.ofBits_zero_f32
theorem zero_counts_apply (y : S1x1x64.Idx) : (k0_pay2 (F := Ideal) : FVec Ideal S1x1x64 .f32) y = 0 :=
  Ideal.ofBits_zero_f32

include hH hB in
/-- At a half's first tile the sums block is that tile's contribution. -/
theorem sums_at_first (t : Fin cfg0.N) (h0 : t.val % 50 = 0) (s : Fin 64) (d : Fin 128) :
    ((outsAt0 V c t.val t.isLt).1 : FVec Ideal S1x64x128 .f32) (ix3 0 s d) = tileSum H B t.val s d := by
  rw [outsAt0_A V c t h0]
  dsimp only
  refine (congrFun (piece_A_2 (F := Ideal) c (grid0.coords t) (ms0_0 t) (hs0_0 t) (ms0_1 t) (hs0_1 t) (ms0_2 t) (hs0_2 t)
    (ms0_3 t) (hs0_3 t) ((hcond0_0 t).mpr h0) (hblk V c t) (idblk V c t)) (ix3 0 s d)).trans ?_
  refine (sums_step_apply (idblk V c t) (hblk V c t) (k0_pay1 (F := Ideal)) s d).trans ?_
  rw [zero_sums_apply, zero_add]
  exact tile_sum_eq V c H B hH hB t s d

include hH hB in
/-- At any other tile it is what the tile before left plus this tile's contribution. -/
theorem sums_at_next (t : Fin cfg0.N) (h0 : ¬t.val % 50 = 0) (s : Fin 64) (d : Fin 128) :
    ((outsAt0 V c t.val t.isLt).1 : FVec Ideal S1x64x128 .f32) (ix3 0 s d)
      = ((outsAt0 V c (t.val - 1) (Nat.lt_of_le_of_lt (Nat.sub_le _ _) t.isLt)).1 : FVec Ideal S1x64x128 .f32) (ix3 0 s d)
        + tileSum H B t.val s d := by
  rw [outsAt0_B V c t h0]
  dsimp only
  refine (congrFun (piece_B_2 (F := Ideal) c (grid0.coords t) (ms0_0 t) (hs0_0 t) (ms0_1 t) (hs0_1 t) (ms0_2 t) (hs0_2 t)
    (ms0_3 t) (hs0_3 t) (fun h => h0 ((hcond0_0 t).mp h)) (hblk V c t) (idblk V c t)
    (outsAt0 V c (t.val - 1) (Nat.lt_of_le_of_lt (Nat.sub_le _ _) t.isLt)).1
    (outsAt0 V c (t.val - 1) (Nat.lt_of_le_of_lt (Nat.sub_le _ _) t.isLt)).2) (ix3 0 s d)).trans ?_
  refine (sums_step_apply (idblk V c t) (hblk V c t)
    (outsAt0 V c (t.val - 1) (Nat.lt_of_le_of_lt (Nat.sub_le _ _) t.isLt)).1 s d).trans ?_
  exact congrArg _ (tile_sum_eq V c H B hH hB t s d)

include hB in
/-- The same two facts for the counts block. -/
theorem counts_at_first (t : Fin cfg0.N) (h0 : t.val % 50 = 0) (s : Fin 64) :
    ((outsAt0 V c t.val t.isLt).2 : FVec Ideal S1x1x64 .f32) (ix3 0 0 s) = tileCnt B t.val s := by
  rw [outsAt0_A V c t h0]
  dsimp only
  refine (congrFun (piece_A_3 (F := Ideal) c (grid0.coords t) (ms0_0 t) (hs0_0 t) (ms0_1 t) (hs0_1 t) (ms0_2 t) (hs0_2 t)
    (ms0_3 t) (hs0_3 t) ((hcond0_0 t).mpr h0) (hblk V c t) (idblk V c t)) (ix3 0 0 s)).trans ?_
  refine (counts_step_apply (idblk V c t) (k0_pay2 (F := Ideal)) s).trans ?_
  rw [zero_counts_apply, zero_add]
  exact tile_cnt_eq V c B hB t s

include hB in
theorem counts_at_next (t : Fin cfg0.N) (h0 : ¬t.val % 50 = 0) (s : Fin 64) :
    ((outsAt0 V c t.val t.isLt).2 : FVec Ideal S1x1x64 .f32) (ix3 0 0 s)
      = ((outsAt0 V c (t.val - 1) (Nat.lt_of_le_of_lt (Nat.sub_le _ _) t.isLt)).2 : FVec Ideal S1x1x64 .f32) (ix3 0 0 s)
        + tileCnt B t.val s := by
  rw [outsAt0_B V c t h0]
  dsimp only
  refine (congrFun (piece_B_3 (F := Ideal) c (grid0.coords t) (ms0_0 t) (hs0_0 t) (ms0_1 t) (hs0_1 t) (ms0_2 t) (hs0_2 t)
    (ms0_3 t) (hs0_3 t) (fun h => h0 ((hcond0_0 t).mp h)) (hblk V c t) (idblk V c t)
    (outsAt0 V c (t.val - 1) (Nat.lt_of_le_of_lt (Nat.sub_le _ _) t.isLt)).1
    (outsAt0 V c (t.val - 1) (Nat.lt_of_le_of_lt (Nat.sub_le _ _) t.isLt)).2) (ix3 0 0 s)).trans ?_
  refine (counts_step_apply (idblk V c t)
    (outsAt0 V c (t.val - 1) (Nat.lt_of_le_of_lt (Nat.sub_le _ _) t.isLt)).2 s).trans ?_
  exact congrArg _ (tile_cnt_eq V c B hB t s)

include hH hB in
/-- After point `n` the sums block holds the tiles of `n`'s half up to `n`. -/
theorem sums_running : ∀ (n : ℕ) (h : n < cfg0.N) (s : Fin 64) (d : Fin 128),
    ((outsAt0 V c n h).1 : FVec Ideal S1x64x128 .f32) (ix3 0 s d)
      = ∑ t' ∈ Finset.Icc (50 * (n / 50)) n, tileSum H B t' s d := by
  intro n
  induction n with
  | zero =>
    intro h s d
    rw [show 50 * (0 / 50) = 0 from rfl, Finset.Icc_self, Finset.sum_singleton]
    exact sums_at_first V c H B hH hB ⟨0, h⟩ rfl s d
  | succ k ih =>
    intro h s d
    by_cases h0 : (k + 1) % 50 = 0
    · rw [show 50 * ((k + 1) / 50) = k + 1 by omega, Finset.Icc_self, Finset.sum_singleton]
      exact sums_at_first V c H B hH hB ⟨k + 1, h⟩ h0 s d
    · rw [show 50 * ((k + 1) / 50) = 50 * (k / 50) by omega, Finset.sum_Icc_succ_top (by omega),
        ← ih (Nat.lt_of_succ_lt h) s d]
      exact sums_at_next V c H B hH hB ⟨k + 1, h⟩ h0 s d

include hB in
/-- After point `n` the counts block holds the counts of the tiles of `n`'s half up to `n`. -/
theorem counts_running : ∀ (n : ℕ) (h : n < cfg0.N) (s : Fin 64),
    ((outsAt0 V c n h).2 : FVec Ideal S1x1x64 .f32) (ix3 0 0 s)
      = ∑ t' ∈ Finset.Icc (50 * (n / 50)) n, tileCnt B t' s := by
  intro n
  induction n with
  | zero =>
    intro h s
    rw [show 50 * (0 / 50) = 0 from rfl, Finset.Icc_self, Finset.sum_singleton]
    exact counts_at_first V c B hB ⟨0, h⟩ rfl s
  | succ k ih =>
    intro h s
    by_cases h0 : (k + 1) % 50 = 0
    · rw [show 50 * ((k + 1) / 50) = k + 1 by omega, Finset.Icc_self, Finset.sum_singleton]
      exact counts_at_first V c B hB ⟨k + 1, h⟩ h0 s
    · rw [show 50 * ((k + 1) / 50) = 50 * (k / 50) by omega, Finset.sum_Icc_succ_top (by omega),
        ← ih (Nat.lt_of_succ_lt h) s]
      exact counts_at_next V c B hB ⟨k + 1, h⟩ h0 s

end Running

/-! ## The two output arrays after the region

The blocks are written back at the last tile of each half (`t % 50 = 49`), block `t / 50`; the two write-backs cover
the arrays, so each array ends holding, in half `a`, the sum over the tiles `50 a … 50 a + 49`. -/

section Arrays

/-- The sums array after the region, as one function of the index. -/
def sumsArr (H : SNxD.Idx → EReal) (B : SN.Idx → BitVec 32) : S2x64x128.Idx → EReal :=
  fun i => ∑ t ∈ Finset.Ico (50 * (i 0).val) (50 * (i 0).val + 50), tileSum H B t (i 1) (i 2)

/-- The counts array after the region, as one function of the index. -/
def countsArr (B : SN.Idx → BitVec 32) : S2x1x64.Idx → EReal :=
  fun i => ∑ t ∈ Finset.Ico (50 * (i 0).val) (50 * (i 0).val + 50), tileCnt B t (i 2)

/-- The tiles of a half up to its last one are the whole half. -/
theorem Icc_last_eq_Ico (n : ℕ) (h49 : n % 50 = 49) :
    Finset.Icc (50 * (n / 50)) n = Finset.Ico (50 * (n / 50)) (50 * (n / 50) + 50) := by
  ext x
  rw [Finset.mem_Icc, Finset.mem_Ico]
  omega

variable (c : Dev nD) (H : SNxD.Idx → EReal) (B : SN.Idx → BitVec 32)
  (hH : ∀ i : S1000000x128.Idx, (V c main_arg0 : S1000000x128.Idx → EReal) i = H i)
  (hB : ∀ n : Fin 1000000, (V c main_v0 : S1000000x1.Idx → BitVec 32) (ix2 n 0) = B (ix1 n))

include hH hB in
/-- What a half's last tile writes back is its block of the sums array. -/
theorem sums_flushed (t : Fin cfg0.N) (hf : (cfg0.win 2).flush t = true) :
    (dat0 (F := Ideal) V c).flushed 2 t = ((cfg0.win 2).blk t).view.read (Elt Ideal) (sumsArr H B) := by
  have h49 : t.val % 50 = 49 := (flush0_2 t).mp hf
  show (cfg0.win 2).cut (grid0.coords t) ((dat0 (F := Ideal) V c).after 2 t) = _
  rw [after0_2]
  funext y
  rw [View.read_apply]
  have hy0 : (y 0).val = 0 := by have : (y 0).val < 1 := (y 0).isLt; omega
  have e1 : (cfg0.win 2).xinj (grid0.coords t) y = ix3 (0 : Fin 1) (⟨(y 1).val, (y 1).isLt⟩ : Fin 64) (⟨(y 2).val, (y 2).isLt⟩ : Fin 128) :=
    funext fun a => Fin.ext (by
      match a with
      | ⟨0, _⟩ => exact hy0
      | ⟨1, _⟩ => rfl
      | ⟨2, _⟩ => rfl)
  show ((outsAt0 V c t.val t.isLt).1 : FVec Ideal S1x64x128 .f32) ((cfg0.win 2).xinj (grid0.coords t) y) = _
  rw [e1, sums_running V c H B hH hB t.val t.isLt, Icc_last_eq_Ico t.val h49]
  have hlt : t.val / 50 < 2 := by have := lt_of_lt_of_eq t.isLt N_0; omega
  have e2 : ((cfg0.win 2).blk t).view.emb y = ix3 (⟨t.val / 50, hlt⟩ : Fin 2) (⟨(y 1).val, (y 1).isLt⟩ : Fin 64) (⟨(y 2).val, (y 2).isLt⟩ : Fin 128) :=
    funext fun a => Fin.ext (by
      match a with
      | ⟨0, _⟩ => show win0_2.index t 0 * 1 + 1 * (y 0).val = t.val / 50; rw [(index_facts t).2.2.2.2.1, hy0]; omega
      | ⟨1, _⟩ => show win0_2.index t 1 * 64 + 1 * (y 1).val = (y 1).val; rw [(index_facts t).2.2.2.2.2.1]; omega
      | ⟨2, _⟩ => show win0_2.index t 2 * 128 + 1 * (y 2).val = (y 2).val; rw [(index_facts t).2.2.2.2.2.2.1]; omega)
  rw [e2]
  rfl

include hB in
/-- What a half's last tile writes back is its block of the counts array. -/
theorem counts_flushed (t : Fin cfg0.N) (hf : (cfg0.win 3).flush t = true) :
    (dat0 (F := Ideal) V c).flushed 3 t = ((cfg0.win 3).blk t).view.read (Elt Ideal) (countsArr B) := by
  have h49 : t.val % 50 = 49 := (flush0_3 t).mp hf
  show (cfg0.win 3).cut (grid0.coords t) ((dat0 (F := Ideal) V c).after 3 t) = _
  rw [after0_3]
  funext y
  rw [View.read_apply]
  have hy0 : (y 0).val = 0 := by have : (y 0).val < 1 := (y 0).isLt; omega
  have hy1 : (y 1).val = 0 := by have : (y 1).val < 1 := (y 1).isLt; omega
  have e1 : (cfg0.win 3).xinj (grid0.coords t) y = ix3 (0 : Fin 1) (0 : Fin 1) (⟨(y 2).val, (y 2).isLt⟩ : Fin 64) :=
    funext fun a => Fin.ext (by
      match a with
      | ⟨0, _⟩ => exact hy0
      | ⟨1, _⟩ => exact hy1
      | ⟨2, _⟩ => rfl)
  show ((outsAt0 V c t.val t.isLt).2 : FVec Ideal S1x1x64 .f32) ((cfg0.win 3).xinj (grid0.coords t) y) = _
  rw [e1, counts_running V c B hB t.val t.isLt, Icc_last_eq_Ico t.val h49]
  have hlt : t.val / 50 < 2 := by have := lt_of_lt_of_eq t.isLt N_0; omega
  have e2 : ((cfg0.win 3).blk t).view.emb y = ix3 (⟨t.val / 50, hlt⟩ : Fin 2) (0 : Fin 1) (⟨(y 2).val, (y 2).isLt⟩ : Fin 64) :=
    funext fun a => Fin.ext (by
      match a with
      | ⟨0, _⟩ => show win0_3.index t 0 * 1 + 1 * (y 0).val = t.val / 50; rw [(index_facts t).2.2.2.2.2.2.2.1, hy0]; omega
      | ⟨1, _⟩ => show win0_3.index t 1 * 1 + 1 * (y 1).val = 0; rw [(index_facts t).2.2.2.2.2.2.2.2.1, hy1]
      | ⟨2, _⟩ => show win0_3.index t 2 * 64 + 1 * (y 2).val = (y 2).val; rw [(index_facts t).2.2.2.2.2.2.2.2.2]; omega)
  rw [e2]
  rfl

/-- Every entry of the sums array lies in the block its half's last tile writes back. -/
theorem sums_cover (i : S2x64x128.Idx) :
    ∃ t : Fin cfg0.N, (cfg0.win 2).flush t = true ∧ i ∈ ((cfg0.win 2).blk t).view.set := by
  have hi : (i 0).val < 2 := (i 0).isLt
  have h1 : (i 1).val < 64 := (i 1).isLt
  have h2 : (i 2).val < 128 := (i 2).isLt
  obtain ⟨t, ht⟩ : ∃ t : Fin cfg0.N, t.val = 50 * (i 0).val + 49 :=
    ⟨⟨50 * (i 0).val + 49, by rw [show cfg0.N = 100 from N_0]; omega⟩, rfl⟩
  refine ⟨t, (flush0_2 t).mpr (by omega), ?_⟩
  show i ∈ ((View.whole main_v1_0).slice (win0_2.rect t)).set
  rw [View.set_slice_whole, Rect.mem_set_unit]
  intro a
  match a with
  | ⟨0, _⟩ =>
    show win0_2.index t 0 * 1 ≤ (i 0).val ∧ (i 0).val < win0_2.index t 0 * 1 + 1
    rw [(index_facts t).2.2.2.2.1]; omega
  | ⟨1, _⟩ =>
    show win0_2.index t 1 * 64 ≤ (i 1).val ∧ (i 1).val < win0_2.index t 1 * 64 + 64
    rw [(index_facts t).2.2.2.2.2.1]; omega
  | ⟨2, _⟩ =>
    show win0_2.index t 2 * 128 ≤ (i 2).val ∧ (i 2).val < win0_2.index t 2 * 128 + 128
    rw [(index_facts t).2.2.2.2.2.2.1]; omega

/-- Every entry of the counts array lies in the block its half's last tile writes back. -/
theorem counts_cover (i : S2x1x64.Idx) :
    ∃ t : Fin cfg0.N, (cfg0.win 3).flush t = true ∧ i ∈ ((cfg0.win 3).blk t).view.set := by
  have hi : (i 0).val < 2 := (i 0).isLt
  have h1 : (i 1).val < 1 := (i 1).isLt
  have h2 : (i 2).val < 64 := (i 2).isLt
  obtain ⟨t, ht⟩ : ∃ t : Fin cfg0.N, t.val = 50 * (i 0).val + 49 :=
    ⟨⟨50 * (i 0).val + 49, by rw [show cfg0.N = 100 from N_0]; omega⟩, rfl⟩
  refine ⟨t, (flush0_3 t).mpr (by omega), ?_⟩
  show i ∈ ((View.whole main_v1_1).slice (win0_3.rect t)).set
  rw [View.set_slice_whole, Rect.mem_set_unit]
  intro a
  match a with
  | ⟨0, _⟩ =>
    show win0_3.index t 0 * 1 ≤ (i 0).val ∧ (i 0).val < win0_3.index t 0 * 1 + 1
    rw [(index_facts t).2.2.2.2.2.2.2.1]; omega
  | ⟨1, _⟩ =>
    show win0_3.index t 1 * 1 ≤ (i 1).val ∧ (i 1).val < win0_3.index t 1 * 1 + 1
    rw [(index_facts t).2.2.2.2.2.2.2.2.1]; omega
  | ⟨2, _⟩ =>
    show win0_3.index t 2 * 64 ≤ (i 2).val ∧ (i 2).val < win0_3.index t 2 * 64 + 64
    rw [(index_facts t).2.2.2.2.2.2.2.2.2]; omega

end Arrays

/-- The sums output after the region: half `i 0`, segment `i 1`, column `i 2` holds the sum over that half's 50 tiles. -/
theorem sums_final (c : Dev nD) (H : SNxD.Idx → EReal) (B : SN.Idx → BitVec 32)
    (hH : ∀ i : S1000000x128.Idx, (V c main_arg0 : S1000000x128.Idx → EReal) i = H i)
    (hB : ∀ n : Fin 1000000, (V c main_v0 : S1000000x1.Idx → BitVec 32) (ix2 n 0) = B (ix1 n)) :
    ((dat0 (F := Ideal) V c).arrAt 2 cfg0.N : S2x64x128.Idx → EReal) =
      fun i => ∑ t ∈ Finset.Ico (50 * (i 0).val) (50 * (i 0).val + 50), tileSum H B t (i 1) (i 2) :=
  (dat0 (F := Ideal) V c).arrAt_eq_of_cover 2 (sumsArr H B) (sums_flushed V c H B hH hB) sums_cover

/-- The counts output after the region: half `i 0`, segment `i 2` holds that half's number of rows of the segment. -/
theorem counts_final (c : Dev nD) (B : SN.Idx → BitVec 32)
    (hB : ∀ n : Fin 1000000, (V c main_v0 : S1000000x1.Idx → BitVec 32) (ix2 n 0) = B (ix1 n)) :
    ((dat0 (F := Ideal) V c).arrAt 3 cfg0.N : S2x1x64.Idx → EReal) =
      fun i => ∑ t ∈ Finset.Ico (50 * (i 0).val) (50 * (i 0).val + 50), tileCnt B t (i 2) :=
  (dat0 (F := Ideal) V c).arrAt_eq_of_cover 3 (countsArr B) (counts_flushed V c B hB) counts_cover

end Cert.KernelIdeal.SegReduce

end
-- ==== Proof.ReduceHost.lean ====
/-
  The host adds the two halves of the reduction kernel's outputs: half 0 holds tiles 0…49, half 1 tiles 50…99, so the
  sum over the halves is the sum over all 100 tiles — the segment sums and the segment counts.
-/
import proofs.«410420_j8383776162380_3_alg».proof.Proof.Gen.KernelIdeal
import proofs.«410420_j8383776162380_3_alg».proof.Proof.Spec
import Idealize.ShloMosaic.Lib.ValueIdx
import Idealize.ShloMosaic.PureOps.Ideal.Laws

noncomputable section

open scoped BigOperators

namespace Cert.KernelIdeal.SegReduceHost

open Cert.KernelIdeal Cert.KernelIdeal.Gen Cert.SegGate
open Idealize.ShloMosaic Idealize.ShloMosaic.ValueIdx

/-- The host's sum of the two halves of the sums output is the segment sum over all 100 tiles. -/
theorem reduce_sums (A : S2x64x128.Idx → EReal) (H : SNxD.Idx → EReal) (B : SN.Idx → BitVec 32)
    (hA : ∀ i : S2x64x128.Idx, A i = ∑ t ∈ Finset.Ico (50 * (i 0).val) (50 * (i 0).val + 50), tileSum H B t (i 1) (i 2)) :
    (Host.reduceAdd (F := Ideal) (φ := .f32) A (constant (F := Ideal) S_ .f32 0x00000000#32) reducesTo_S2x64x128_S64x128_d0 h_S_
      : S64x128.Idx → EReal) = segSum H B := by
  have hR : Shape.Reduces S2x64x128 [0] S64x128 := by decide
  funext j
  -- At (s, d) the reduction over the leading axis is 0 + (A (0, s, d) + A (1, s, d)).
  show Ideal.hostReduceAdd reducesTo_S2x64x128_S64x128_d0 A (Ideal.ofBits .f32 0x00000000#32) j = _
  rw [Ideal.hostReduceAdd_single _ hR, Ideal.ofBits_zero_f32, zero_add]
  show ∑ k : Fin 2, A (hR.lift j k) = _
  rw [Fin.sum_univ_two, hA, hA]
  -- Half 0 is the sum over tiles [0, 50), half 1 over [50, 100); adjacent intervals join to [0, 100).
  show ∑ t ∈ Finset.Ico 0 50, tileSum H B t (j 0) (j 1) + ∑ t ∈ Finset.Ico 50 100, tileSum H B t (j 0) (j 1)
    = ∑ t ∈ Finset.range 100, tileSum H B t (j 0) (j 1)
  rw [Finset.range_eq_Ico]
  exact Finset.sum_Ico_consecutive _ (by norm_num) (by norm_num)

/-- The host's sum of the two halves of the counts output is the segment count, still laid out as a [1, 64] row. -/
theorem reduce_counts (A : S2x1x64.Idx → EReal) (B : SN.Idx → BitVec 32)
    (hA : ∀ i : S2x1x64.Idx, A i = ∑ t ∈ Finset.Ico (50 * (i 0).val) (50 * (i 0).val + 50), tileCnt B t (i 2)) :
    (Host.reduceAdd (F := Ideal) (φ := .f32) A (constant (F := Ideal) S_ .f32 0x00000000#32) reducesTo_S2x1x64_S1x64_d0 h_S_
      : S1x64.Idx → EReal) = fun i => segCnt B (ix1 (i 1)) := by
  have hR : Shape.Reduces S2x1x64 [0] S1x64 := by decide
  funext j
  -- At (0, s) the reduction over the leading axis is 0 + (A (0, 0, s) + A (1, 0, s)).
  show Ideal.hostReduceAdd reducesTo_S2x1x64_S1x64_d0 A (Ideal.ofBits .f32 0x00000000#32) j = _
  rw [Ideal.hostReduceAdd_single _ hR, Ideal.ofBits_zero_f32, zero_add]
  show ∑ k : Fin 2, A (hR.lift j k) = _
  rw [Fin.sum_univ_two, hA, hA]
  -- The two halves count the rows of tiles [0, 50) and [50, 100); together, of all 100 tiles.
  show ∑ t ∈ Finset.Ico 0 50, tileCnt B t (j 1) + ∑ t ∈ Finset.Ico 50 100, tileCnt B t (j 1)
    = ∑ t ∈ Finset.range 100, tileCnt B t (j 1)
  rw [Finset.range_eq_Ico]
  exact Finset.sum_Ico_consecutive _ (by norm_num) (by norm_num)

end Cert.KernelIdeal.SegReduceHost

end
-- ==== Proof.Gather.lean ====
/-
  What the gather kernel leaves in its output: row `n` of `h` times the sum over the 64 segments of (indicator that the
  row's id word names the segment) × (that segment's gate row) — the one-hot matrix times the gate table, tile by tile,
  the tiles covering the rows.

  The order of the argument: first one tile's arithmetic, over any three blocks (the product's entry at row `r`, column `d`
  is the sum over the segment axis of one-hot entry × gate entry, and a one-hot entry is the indicator); then where each
  block sits in its array (row `r` of tile `t` is row `t * 10000 + r`; the gate table's block is the whole table); then
  what a tile writes back, and that the 100 tiles' blocks cover all the rows.
-/
import proofs.«410420_j8383776162380_3_alg».proof.Proof.Gen.KernelIdeal.Frame
import proofs.«410420_j8383776162380_3_alg».proof.Proof.Spec
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

set_option maxRecDepth 16384

noncomputable section

open scoped BigOperators

namespace Cert.KernelIdeal.SegGather

open Cert.KernelIdeal Cert.KernelIdeal.Gen Cert.SegGate
open Idealize.ShloMosaic Idealize.ShloMosaic.TcCoe Idealize.ShloMosaic.ValueIdx Idealize.SL.Sem
open Idealize.ShloMosaic.Pipeline (Dat)

/-! ## One tile's arithmetic

The product contracts the one-hot matrix's column axis against the gate table's row axis: at output entry (row, column) and
segment `q` the left factor is read at (row, `q`) and the right factor at (`q`, column). The four statements below are those
four coordinates. -/

/-- The left factor's row is the output's row. -/
theorem lhs_gather_0 (i : S10000x128.Idx) (q : dot_S10000x64_S64x128_S10000x128_1_0_0_1_n_n.contr.Idx) :
    (dot_S10000x64_S64x128_S10000x128_1_0_0_1_n_n.lhsIdx i q 0).val = (i 0).val := by
  unfold DotDims.lhsIdx
  rw [dif_neg (show ¬(0 : Fin S10000x64.rank) ∈ dot_S10000x64_S64x128_S10000x128_1_0_0_1_n_n.lhsBatch by decide), dif_pos (show (0 : Fin S10000x64.rank) ∈ dot_S10000x64_S64x128_S10000x128_1_0_0_1_n_n.lhsNonContracting by decide)]
  rfl
/-- The left factor's column is the segment summed over. -/
theorem lhs_gather_1 (i : S10000x128.Idx) (q : dot_S10000x64_S64x128_S10000x128_1_0_0_1_n_n.contr.Idx) :
    (dot_S10000x64_S64x128_S10000x128_1_0_0_1_n_n.lhsIdx i q 1).val = (q ⟨0, by decide⟩).val :=
  dot_S10000x64_S64x128_S10000x128_1_0_0_1_n_n.lhsIdx_val_of_single rfl i q
/-- The right factor's row is the segment summed over. -/
theorem rhs_gather_0 (i : S10000x128.Idx) (q : dot_S10000x64_S64x128_S10000x128_1_0_0_1_n_n.contr.Idx) :
    (dot_S10000x64_S64x128_S10000x128_1_0_0_1_n_n.rhsIdx i q 0).val = (q ⟨0, by decide⟩).val :=
  dot_S10000x64_S64x128_S10000x128_1_0_0_1_n_n.rhsIdx_val_of_single rfl i q
/-- The right factor's column is the output's column. -/
theorem rhs_gather_1 (i : S10000x128.Idx) (q : dot_S10000x64_S64x128_S10000x128_1_0_0_1_n_n.contr.Idx) :
    (dot_S10000x64_S64x128_S10000x128_1_0_0_1_n_n.rhsIdx i q 1).val = (i 1).val := by
  unfold DotDims.rhsIdx
  rw [dif_neg (show ¬(1 : Fin S64x128.rank) ∈ dot_S10000x64_S64x128_S10000x128_1_0_0_1_n_n.rhsBatch by decide), dif_pos (show (1 : Fin S64x128.rank) ∈ dot_S10000x64_S64x128_S10000x128_1_0_0_1_n_n.rhsNonContracting by decide)]
  rfl

/-- A one-hot entry as the kernel makes it — compare the id word with the segment's number, widen the resulting bit to a
    word, convert the word to a float — is the indicator: the bit is 1 exactly when the words are equal, and the words 1 and 0
    convert to the numbers 1 and 0. -/
theorem onehot_word (b : BitVec 32) (s : Fin 64) :
    (FloatOps.sitofp (F := Ideal) .f32 ((IntOp.cmpi .eq b (BitVec.ofNat 32 s.val)).setWidth 32) : EReal) = onehot b s := by
  unfold onehot
  show (((((BitVec.ofBool (b == BitVec.ofNat 32 s.val)).setWidth 32).toInt : ℤ) : ℝ) : EReal) = _
  by_cases h : b = BitVec.ofNat 32 s.val
  · rw [if_pos h, beq_iff_eq.mpr h, show ((BitVec.ofBool true).setWidth 32).toInt = 1 from by decide]
    simp
  · rw [if_neg h, beq_eq_false_iff_ne.mpr h, show ((BitVec.ofBool false).setWidth 32).toInt = 0 from by decide]
    simp

/-- One tile's result at row `r`, column `d`, over any three blocks: the row's entry times the sum over the segments of
    (indicator of the row's id word) × (the gate block's entry). The product accumulates into zero, so it is the bare sum over
    the segment axis; the id column is spread along that axis and compared with the axis's own coordinate; the changes of
    float format and the casts to the same shape do nothing. -/
theorem pay_apply (x0 : Vec Ideal S10000x128 .f32) (x1 : Vec Ideal S10000x1 .i32) (x2 : Vec Ideal S64x128 .f32)
    (r : Fin 10000) (d : Fin 128) :
    (k1_pay1 (F := Ideal) x1 x2 x0) (ix2 r d) = x0 (ix2 r d) * ∑ s : Fin 64, onehot (x1 (ix2 r 0)) s * x2 (ix2 s d) := by
  unfold k1_pay1
  rw [mulf_apply]
  refine congrArg (x0 (ix2 r d) * ·) ?_
  simp only [matmul]
  rw [Ideal.matmul_constant_zero_apply, ← Equiv.sum_comp (contrEquiv1 dot_S10000x64_S64x128_S10000x128_1_0_0_1_n_n 64 rfl rfl).symm]
  refine Finset.sum_congr rfl fun k _ => ?_
  have hk := contrEquiv1_symm_val dot_S10000x64_S64x128_S10000x128_1_0_0_1_n_n 64 rfl rfl k
  have el : dot_S10000x64_S64x128_S10000x128_1_0_0_1_n_n.lhsIdx (ix2 r d) ((contrEquiv1 dot_S10000x64_S64x128_S10000x128_1_0_0_1_n_n 64 rfl rfl).symm k) = ix2 r k := funext fun a => Fin.ext (by
    match a with
    | ⟨0, _⟩ => exact lhs_gather_0 _ _
    | ⟨1, _⟩ => exact (lhs_gather_1 _ _).trans hk)
  have er : dot_S10000x64_S64x128_S10000x128_1_0_0_1_n_n.rhsIdx (ix2 r d) ((contrEquiv1 dot_S10000x64_S64x128_S10000x128_1_0_0_1_n_n 64 rfl rfl).symm k) = ix2 k d := funext fun a => Fin.ext (by
    match a with
    | ⟨0, _⟩ => exact (rhs_gather_0 _ _).trans hk
    | ⟨1, _⟩ => exact rhs_gather_1 _ _)
  rw [el, er, shapeCast_self, shapeCast_self]
  show FloatOps.sitofp (F := Ideal) .f32 ((IntOp.cmpi .eq (broadcastTo S10000x64 x1 broadcasts_S10000x1_S10000x64 (ix2 r k)) (iota .tc S10000x64 32 [1] iota_S10000x64_d1_w32 (ix2 r k))).setWidth 32) * x2 (ix2 k d) = _
  rw [broadcastTo_apply x1 broadcasts_S10000x1_S10000x64 (ix2 r k) (ix2 r 0) (fun a => by match a with | ⟨0, _⟩ => rfl | ⟨1, _⟩ => rfl),
    iota_single_apply]
  show FloatOps.sitofp (F := Ideal) .f32 ((IntOp.cmpi .eq (x1 (ix2 r 0)) (BitVec.ofNat 32 k.val)).setWidth 32) * _ = _
  rw [onehot_word]

/-! ## Where the blocks sit -/

variable (V : (c : Dev nD) → (b : Ref sig .tc) → Buf (Elt Ideal) ((c : Thread nD τ).loc b))

/-- The three arrays the region reads, as it finds them, at their literal types: the rows, the id column, the gate table. -/
abbrev harr (c : Dev nD) : S1000000x128.Idx → EReal := V c main_arg0
abbrev idcol (c : Dev nD) : S1000000x1.Idx → BitVec 32 := V c main_v0
abbrev gtab (c : Dev nD) : S64x128.Idx → EReal := V c main_v24

/-- The block indices, decided once over the 100 tiles: the rows, the id column and the result move with the tile along the
    row axis and stay at 0 along the other; the gate table's one block is the whole table. -/
theorem tile_index : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- Row `r` of tile `t`'s block of rows is row `t * 10000 + r` of the array. -/
theorem rows_block (c : Dev nD) (t : Fin cfg1.N) (r : Fin 10000) (d : Fin 128) (n : Fin 1000000)
    (hn : n.val = t.val * 10000 + r.val) :
    (iblk1 V c 0 t : Vec Ideal S10000x128 .f32) (ix2 r d) = harr V c (ix2 n d) := by
  obtain ⟨e0, e1, -⟩ := tile_index t
  unfold iblk1
  rw [View.read_apply]
  show V c main_arg0 _ = V c main_arg0 _
  refine congrArg (V c main_arg0) (funext fun a => Fin.ext ?_)
  match a with
  | ⟨0, _⟩ => show win1_0.index t (0 : Fin 2) * 10000 + 1 * r.val = n.val; rw [e0, hn]; omega
  | ⟨1, _⟩ => show win1_0.index t (1 : Fin 2) * 128 + 1 * d.val = d.val; rw [e1]; omega

/-- Row `r` of tile `t`'s block of the id column is row `t * 10000 + r` of the column. -/
theorem ids_block (c : Dev nD) (t : Fin cfg1.N) (r : Fin 10000) (n : Fin 1000000)
    (hn : n.val = t.val * 10000 + r.val) :
    (iblk1 V c 1 t : Vec Ideal S10000x1 .i32) (ix2 r 0) = idcol V c (ix2 n 0) := by
  obtain ⟨-, -, e0, e1, -⟩ := tile_index t
  unfold iblk1
  rw [View.read_apply]
  show V c main_v0 _ = V c main_v0 _
  refine congrArg (V c main_v0) (funext fun a => Fin.ext ?_)
  match a with
  | ⟨0, _⟩ => show win1_1.index t (0 : Fin 2) * 10000 + 1 * r.val = n.val; rw [e0, hn]; omega
  | ⟨1, _⟩ => show win1_1.index t (1 : Fin 2) * 1 + 1 * 0 = 0; rw [e1]

/-- The gate table's block is the table, at every tile. -/
theorem gate_block (c : Dev nD) (t : Fin cfg1.N) (s : Fin 64) (d : Fin 128) :
    (iblk1 V c 2 t : Vec Ideal S64x128 .f32) (ix2 s d) = gtab V c (ix2 s d) := by
  obtain ⟨-, -, -, -, e0, e1, -⟩ := tile_index t
  unfold iblk1
  rw [View.read_apply]
  show V c main_v24 _ = V c main_v24 _
  refine congrArg (V c main_v24) (funext fun a => Fin.ext ?_)
  match a with
  | ⟨0, _⟩ => show win1_2.index t (0 : Fin 2) * 64 + 1 * s.val = s.val; rw [e0]; omega
  | ⟨1, _⟩ => show win1_2.index t (1 : Fin 2) * 128 + 1 * d.val = d.val; rw [e1]; omega

/-! ## From the tiles to the array -/

/-- What the result array ends holding: row `n` of the rows times the gate row picked by the indicators of row `n`'s id word. -/
def gathered (c : Dev nD) : S1000000x128.Idx → EReal :=
  fun i => harr V c i * ∑ s : Fin 64, onehot (idcol V c (ix2 (i 0) 0)) s * gtab V c (ix2 s (i 1))

/-- The kernel reads and writes each of its blocks whole: from offset 0 on both axes. -/
theorem zero_offsets : (![0, 0] : Fin 2 → Nat) = fun _ => 0 := funext fun a => by fin_cases a <;> rfl

/-- The tile's arithmetic on tile `t`'s three blocks, at row `r`, column `d`, is `gathered` at row `t * 10000 + r`. -/
theorem tile_value (c : Dev nD) (t : Fin cfg1.N) (r : Fin 10000) (d : Fin 128) (n : Fin 1000000)
    (hn : n.val = t.val * 10000 + r.val) :
    k1_pay1 (F := Ideal) (iblk1 V c 1 t) (iblk1 V c 2 t) (iblk1 V c 0 t) (ix2 r d) = gathered V c (ix2 n d) := by
  refine (pay_apply (iblk1 V c 0 t) (iblk1 V c 1 t) (iblk1 V c 2 t) r d).trans ?_
  unfold gathered
  rw [rows_block V c t r d n hn, ids_block V c t r n hn]
  refine congrArg (harr V c (ix2 n d) * ·) (Finset.sum_congr rfl fun s _ => ?_)
  rw [gate_block V c t s d]

/-- What tile `t` writes back is block `t` of `gathered`: the body's one store puts the tile's arithmetic on the three blocks
    into the whole output block, and the output block's row `r` is row `t * 10000 + r` of the result. -/
theorem tile_writes (c : Dev nD) (t : Fin cfg1.N) :
    (dat1 (F := Ideal) V c).flushed 3 t = ((cfg1.win 3).blk t).view.read (Elt Ideal) (gathered V c) := by
  show (cfg1.win 3).cut (grid1.coords t) ((dat1 V c).after 3 t) = _
  rw [after1_3]
  unfold out1_3
  rw [View.canon_unit_zero zero_offsets]
  simp only [View.ld_unit_zero (S := S10000x128) zero_offsets, View.ld_unit_zero (S := S10000x1) zero_offsets,
    View.ld_unit_zero (S := S64x128) zero_offsets]
  obtain ⟨-, -, -, -, -, -, e0, e1⟩ := tile_index t
  funext j
  have hr : (j 0).val < 10000 := (j 0).isLt
  have hd : (j 1).val < 128 := (j 1).isLt
  have ht : t.val < 100 := lt_of_lt_of_eq t.isLt N_1
  have hj : j = ix2 (⟨(j 0).val, hr⟩ : Fin 10000) (⟨(j 1).val, hd⟩ : Fin 128) :=
    funext fun a => by match a with | ⟨0, _⟩ => rfl | ⟨1, _⟩ => rfl
  show k1_pay1 (F := Ideal) (iblk1 V c 1 t) (iblk1 V c 2 t) (iblk1 V c 0 t) j
    = gathered V c (((cfg1.win 3).blk t).view.emb j)
  refine (congrArg (k1_pay1 (F := Ideal) (iblk1 V c 1 t) (iblk1 V c 2 t) (iblk1 V c 0 t)) hj).trans ?_
  refine (tile_value V c t ⟨(j 0).val, hr⟩ ⟨(j 1).val, hd⟩ ⟨t.val * 10000 + (j 0).val, by omega⟩ rfl).trans ?_
  refine congrArg (gathered V c) (funext fun a => Fin.ext ?_)
  match a with
  | ⟨0, _⟩ => show t.val * 10000 + (j 0).val = win1_3.index t (0 : Fin 2) * 10000 + 1 * (j 0).val; rw [e0]; omega
  | ⟨1, _⟩ => show (j 1).val = win1_3.index t (1 : Fin 2) * 128 + 1 * (j 1).val; rw [e1]; omega

/-- A row-column pair lies in tile `t`'s block of the result iff each coordinate is in the block's range on its axis. -/
theorem mem_tile (t : Fin cfg1.N) (i : S1000000x128.Idx) :
    i ∈ ((cfg1.win 3).blk t).view.set ↔
      ∀ a : Fin 2, win1_3.index t a * S10000x128.size a ≤ (i a).val ∧ (i a).val < win1_3.index t a * S10000x128.size a + S10000x128.size a := by
  show i ∈ ((View.whole main_v25).slice (win1_3.rect t)).set ↔ _
  rw [View.set_slice_whole, Rect.mem_set_unit]
  exact Iff.rfl

/-- Every row `n` is in the block of tile `n / 10000`, and every tile writes its block back: the tiles cover the result. -/
theorem tiles_cover (i : S1000000x128.Idx) :
    ∃ t : Fin cfg1.N, (cfg1.win 3).flush t = true ∧ i ∈ ((cfg1.win 3).blk t).view.set := by
  have hi0 : (i 0).val < 1000000 := idx2_lt0 i
  have hi1 : (i 1).val < 128 := idx2_lt1 i
  have hN : cfg1.N = 100 := N_1
  refine ⟨⟨(i 0).val / 10000, by rw [hN]; omega⟩, flush1_3 _, ?_⟩
  obtain ⟨-, -, -, -, -, -, e0, e1⟩ := tile_index ⟨(i 0).val / 10000, by rw [hN]; omega⟩
  rw [mem_tile]
  intro a
  match a with
  | ⟨0, _⟩ =>
    show win1_3.index _ (0 : Fin 2) * 10000 ≤ (i 0).val ∧ (i 0).val < win1_3.index _ (0 : Fin 2) * 10000 + 10000
    rw [e0]; show (i 0).val / 10000 * 10000 ≤ (i 0).val ∧ (i 0).val < (i 0).val / 10000 * 10000 + 10000; omega
  | ⟨1, _⟩ =>
    show win1_3.index _ (1 : Fin 2) * 128 ≤ (i 1).val ∧ (i 1).val < win1_3.index _ (1 : Fin 2) * 128 + 128
    rw [e1]; omega

/-- The result array after the region, as one function of the three arrays the region reads. -/
theorem gathered_final (c : Dev nD) :
    ((dat1 (F := Ideal) V c).arrAt 3 cfg1.N : S1000000x128.Idx → EReal) =
      fun i => harr V c i * ∑ s : Fin 64, onehot (idcol V c (ix2 (i 0) 0)) s * gtab V c (ix2 s (i 1)) :=
  (dat1 (F := Ideal) V c).arrAt_eq_of_cover 3 (gathered V c) (fun t _ => tile_writes V c t) tiles_cover

end Cert.KernelIdeal.SegGather

end
-- ==== Proof.KernelValue.lean ====
/-
  The kernel program's result, as one function of its arguments.

  Read along the program: the id vector is viewed as a column; the reduction kernel leaves, per half of the tiles, the
  segment sums and counts of that half; the host adds the halves and applies the gate network (the shared term `gate`);
  the gather kernel multiplies each row by the sum over the segments of indicator × gate row, which for an id inside
  [0, 64) is the gate row of its segment. So the result array is `modulated` of the arguments.
-/
import proofs.«410420_j8383776162380_3_alg».proof.Proof.KernelRun
import proofs.«410420_j8383776162380_3_alg».proof.Proof.Reduce
import proofs.«410420_j8383776162380_3_alg».proof.Proof.ReduceHost
import proofs.«410420_j8383776162380_3_alg».proof.Proof.Gather
import proofs.«410420_j8383776162380_3_alg».proof.Proof.Spec
import Idealize.ShloMosaic.Lib.StableHlo.Run
import Idealize.ShloMosaic.Lib.Pipeline.Value
import Idealize.ShloMosaic.Lib.ValueIdx
import Idealize.ShloMosaic.Lib.ValueLayout

set_option maxRecDepth 16384

noncomputable section

open scoped BigOperators

namespace Cert.KernelIdeal.SegValue

open Cert.KernelIdeal Cert.KernelIdeal.Gen Cert.SegGate
open Idealize.ShloMosaic Idealize.ShloMosaic.TcCoe Idealize.ShloMosaic.ValueIdx Idealize.SL.Sem
open Idealize.ShloMosaic.StableHlo
open Idealize.ShloMosaic.Pipeline (Dat)

variable (m : (ℓ : Loc nD τ sig) → Buf (Elt Ideal) ℓ) (ρ : Dev nD → PrngReg)

/-- The arguments at their literal types. -/
abbrev aH (c : Dev nD) : S1000000x128.Idx → EReal := m ((c.tc : Thread nD τ).loc main_arg0)
abbrev aB (c : Dev nD) : S1000000.Idx → BitVec 32 := m ((c.tc : Thread nD τ).loc main_arg1)
abbrev aW1 (c : Dev nD) : FVec Ideal S128x128 .f32 := m ((c.tc : Thread nD τ).loc main_arg2)
abbrev ab1 (c : Dev nD) : FVec Ideal S128 .f32 := m ((c.tc : Thread nD τ).loc main_arg3)
abbrev aW2 (c : Dev nD) : FVec Ideal S128x128 .f32 := m ((c.tc : Thread nD τ).loc main_arg4)
abbrev ab2 (c : Dev nD) : FVec Ideal S128 .f32 := m ((c.tc : Thread nD τ).loc main_arg5)

set_option maxHeartbeats 2000000 in
/-- The gate table as the gather kernel finds it: the shared network on the host's sums of the two halves. -/
theorem gtab_eq (c : Dev nD) :
    (V5 m ρ c main_v24 : S64x128.Idx → EReal) =
      gate (Host.reduceAdd (F := Ideal) (φ := .f32) (W2 m ρ c (Proc.devRef .tc main_v1_0)) (constant (F := Ideal) S_ .f32 0x00000000#32) reducesTo_S2x64x128_S64x128_d0 h_S_)
        (shapeCast S64 (Host.reduceAdd (F := Ideal) (φ := .f32) (W2 m ρ c (Proc.devRef .tc main_v1_1)) (constant (F := Ideal) S_ .f32 0x00000000#32) reducesTo_S2x1x64_S1x64_d0 h_S_) shapeCasts_S1x64_S64)
        (W2 m ρ c (Proc.devRef .tc main_arg2)) (W2 m ρ c (Proc.devRef .tc main_arg3))
        (W2 m ρ c (Proc.devRef .tc main_arg4)) (W2 m ρ c (Proc.devRef .tc main_arg5)) := by
  dsimp only [V5, W5, W4, W3]
  generalize W2 m ρ c = Wv
  after_results_simp
  rfl

/-- Argument 2 reaches the boundary after the reduction kernel unchanged: no host operation before it writes it and it is none of that kernel's arrays. -/
theorem W2_arg2 (c : Dev nD) : W2 m ρ c (Proc.devRef .tc main_arg2) = m ((c.tc : Thread nD τ).loc main_arg2) :=
  calc W2 m ρ c (Proc.devRef .tc main_arg2)
    _ = W1 m ρ c (Proc.devRef .tc main_arg2) := W2_of_ne m ρ c main_arg2 (fun w => by fin_cases w <;> decide)
    _ = W0 m ρ c (Proc.devRef .tc main_arg2) := StableHlo.after_of_forall_not_mem _ _ (List.forall_iff_forall_mem.mp (by
      simp only [hostOps0, List.Forall, StableHlo.nullary_writes, StableHlo.unary_writes, StableHlo.binary_writes, StableHlo.ternary_writes, StableHlo.reshape_writes, Finset.mem_singleton]
      repeat' apply And.intro
      all_goals exact StableHlo.devRef_ne_of_ne (by decide)))
    _ = m ((c.tc : Thread nD τ).loc main_arg2) := rfl

/-- Argument 3 reaches the boundary after the reduction kernel unchanged: no host operation before it writes it and it is none of that kernel's arrays. -/
theorem W2_arg3 (c : Dev nD) : W2 m ρ c (Proc.devRef .tc main_arg3) = m ((c.tc : Thread nD τ).loc main_arg3) :=
  calc W2 m ρ c (Proc.devRef .tc main_arg3)
    _ = W1 m ρ c (Proc.devRef .tc main_arg3) := W2_of_ne m ρ c main_arg3 (fun w => by fin_cases w <;> decide)
    _ = W0 m ρ c (Proc.devRef .tc main_arg3) := StableHlo.after_of_forall_not_mem _ _ (List.forall_iff_forall_mem.mp (by
      simp only [hostOps0, List.Forall, StableHlo.nullary_writes, StableHlo.unary_writes, StableHlo.binary_writes, StableHlo.ternary_writes, StableHlo.reshape_writes, Finset.mem_singleton]
      repeat' apply And.intro
      all_goals exact StableHlo.devRef_ne_of_ne (by decide)))
    _ = m ((c.tc : Thread nD τ).loc main_arg3) := rfl

/-- Argument 4 reaches the boundary after the reduction kernel unchanged: no host operation before it writes it and it is none of that kernel's arrays. -/
theorem W2_arg4 (c : Dev nD) : W2 m ρ c (Proc.devRef .tc main_arg4) = m ((c.tc : Thread nD τ).loc main_arg4) :=
  calc W2 m ρ c (Proc.devRef .tc main_arg4)
    _ = W1 m ρ c (Proc.devRef .tc main_arg4) := W2_of_ne m ρ c main_arg4 (fun w => by fin_cases w <;> decide)
    _ = W0 m ρ c (Proc.devRef .tc main_arg4) := StableHlo.after_of_forall_not_mem _ _ (List.forall_iff_forall_mem.mp (by
      simp only [hostOps0, List.Forall, StableHlo.nullary_writes, StableHlo.unary_writes, StableHlo.binary_writes, StableHlo.ternary_writes, StableHlo.reshape_writes, Finset.mem_singleton]
      repeat' apply And.intro
      all_goals exact StableHlo.devRef_ne_of_ne (by decide)))
    _ = m ((c.tc : Thread nD τ).loc main_arg4) := rfl

/-- Argument 5 reaches the boundary after the reduction kernel unchanged: no host operation before it writes it and it is none of that kernel's arrays. -/
theorem W2_arg5 (c : Dev nD) : W2 m ρ c (Proc.devRef .tc main_arg5) = m ((c.tc : Thread nD τ).loc main_arg5) :=
  calc W2 m ρ c (Proc.devRef .tc main_arg5)
    _ = W1 m ρ c (Proc.devRef .tc main_arg5) := W2_of_ne m ρ c main_arg5 (fun w => by fin_cases w <;> decide)
    _ = W0 m ρ c (Proc.devRef .tc main_arg5) := StableHlo.after_of_forall_not_mem _ _ (List.forall_iff_forall_mem.mp (by
      simp only [hostOps0, List.Forall, StableHlo.nullary_writes, StableHlo.unary_writes, StableHlo.binary_writes, StableHlo.ternary_writes, StableHlo.reshape_writes, Finset.mem_singleton]
      repeat' apply And.intro
      all_goals exact StableHlo.devRef_ne_of_ne (by decide)))
    _ = m ((c.tc : Thread nD τ).loc main_arg5) := rfl

/-- The rows as the reduction kernel finds them are the argument. -/
theorem V1_arg0 (c : Dev nD) : V1 m ρ c main_arg0 = m ((c.tc : Thread nD τ).loc main_arg0) :=
  calc W1 m ρ c (Proc.devRef .tc main_arg0)
    _ = W0 m ρ c (Proc.devRef .tc main_arg0) := StableHlo.after_of_forall_not_mem _ _ (List.forall_iff_forall_mem.mp (by
      simp only [hostOps0, List.Forall, StableHlo.nullary_writes, StableHlo.unary_writes, StableHlo.binary_writes, StableHlo.ternary_writes, StableHlo.reshape_writes, Finset.mem_singleton]
      repeat' apply And.intro
      all_goals exact StableHlo.devRef_ne_of_ne (by decide)))
    _ = m ((c.tc : Thread nD τ).loc main_arg0) := rfl

/-- The id column as the reduction kernel finds it: the id vector, entry `n` at `(n, 0)`. -/
theorem V1_ids (c : Dev nD) (n : Fin 1000000) :
    (V1 m ρ c main_v0 : S1000000x1.Idx → BitVec 32) (ix2 n 0) = aB m c (ix1 n) := by
  have e : (V1 m ρ c main_v0 : S1000000x1.Idx → BitVec 32)
      = shapeCast S1000000x1 (aB m c) shapeCasts_S1000000_S1000000x1 := by
    dsimp only [V1, W1]
    after_results
    rfl
  rw [e]
  exact shapeCast_apply _ _ _ _ (by
    rw [Shape.rowMajor_val_one, Shape.rowMajor_val_two]
    show n.val = n.val * 1 + 0
    omega)

/-- The rows as the gather kernel finds them are the argument. -/
theorem V5_arg0 (c : Dev nD) : V5 m ρ c main_arg0 = m ((c.tc : Thread nD τ).loc main_arg0) :=
  (((W6_arr m ρ c 0).trans (((dat1 (V5 m ρ) c).arrAt_in 0 rfl _).trans (A_eq1 (V5 m ρ) c 0))).symm).trans (W6_main_arg0 m ρ c)

/-- The id column as the gather kernel finds it is the one the reduction kernel found. -/
theorem V5_ids (c : Dev nD) : V5 m ρ c main_v0 = V1 m ρ c main_v0 :=
  calc W5 m ρ c (Proc.devRef .tc main_v0)
    _ = W4 m ρ c (Proc.devRef .tc main_v0) := StableHlo.after_of_forall_not_mem _ _ (List.forall_iff_forall_mem.mp (by
      simp only [hostOps1_2, List.Forall, StableHlo.nullary_writes, StableHlo.unary_writes, StableHlo.binary_writes, StableHlo.ternary_writes, StableHlo.reshape_writes, Finset.mem_singleton]
      repeat' apply And.intro
      all_goals exact StableHlo.devRef_ne_of_ne (by decide)))
    _ = W3 m ρ c (Proc.devRef .tc main_v0) := StableHlo.after_of_forall_not_mem _ _ (List.forall_iff_forall_mem.mp (by
      simp only [hostOps1_1, List.Forall, StableHlo.nullary_writes, StableHlo.unary_writes, StableHlo.binary_writes, StableHlo.ternary_writes, StableHlo.reshape_writes, Finset.mem_singleton]
      repeat' apply And.intro
      all_goals exact StableHlo.devRef_ne_of_ne (by decide)))
    _ = W2 m ρ c (Proc.devRef .tc main_v0) := StableHlo.after_of_forall_not_mem _ _ (List.forall_iff_forall_mem.mp (by
      simp only [hostOps1, List.Forall, StableHlo.nullary_writes, StableHlo.unary_writes, StableHlo.binary_writes, StableHlo.ternary_writes, StableHlo.reshape_writes, Finset.mem_singleton]
      repeat' apply And.intro
      all_goals exact StableHlo.devRef_ne_of_ne (by decide)))
    _ = V1 m ρ c main_v0 := (W2_arr m ρ c 1).trans (((dat0 (V1 m ρ) c).arrAt_in 1 rfl _).trans (A_eq0 (V1 m ρ) c 1))

/-- The host's sum of the two halves of the reduction kernel's sums output: the segment sums of the arguments. -/
theorem sums_eq (c : Dev nD) :
    (Host.reduceAdd (F := Ideal) (φ := .f32) (W2 m ρ c (Proc.devRef .tc main_v1_0)) (constant (F := Ideal) S_ .f32 0x00000000#32) reducesTo_S2x64x128_S64x128_d0 h_S_
      : S64x128.Idx → EReal) = segSum (aH m c) (aB m c) :=
  SegReduceHost.reduce_sums _ (aH m c) (aB m c) fun i =>
    congrFun ((W2_arr m ρ c 2).trans (SegReduce.sums_final (V1 m ρ) c (aH m c) (aB m c)
      (fun j => congrFun (V1_arg0 m ρ c) j) (V1_ids m ρ c))) i

/-- The host's sum of the two halves of the counts output, viewed as a vector: the segment counts. -/
theorem counts_eq (c : Dev nD) :
    (shapeCast S64 (Host.reduceAdd (F := Ideal) (φ := .f32) (W2 m ρ c (Proc.devRef .tc main_v1_1)) (constant (F := Ideal) S_ .f32 0x00000000#32) reducesTo_S2x1x64_S1x64_d0 h_S_) shapeCasts_S1x64_S64
      : S64.Idx → EReal) = segCnt (aB m c) := by
  rw [SegReduceHost.reduce_counts _ (aB m c) fun i =>
    congrFun ((W2_arr m ρ c 3).trans (SegReduce.counts_final (V1 m ρ) c (aB m c) (V1_ids m ρ c))) i]
  funext j
  obtain ⟨s, rfl⟩ : ∃ s, j = ix1 s := ⟨j 0, eq_ix1 j⟩
  exact shapeCast_1a_a_apply _ _ s

/-- The result array: `modulated` of the arguments, when every id is inside [0, 64). -/
theorem result_eq (c : Dev nD) (hB : ∀ n : Fin 1000000, (aB m c (ix1 n)).toNat < 64) :
    (W6 m ρ c (Proc.devRef .tc main_v25) : S1000000x128.Idx → EReal)
      = modulated (aH m c) (aB m c) (aW1 m c) (ab1 m c) (aW2 m c) (ab2 m c) := by
  have e1 : (W6 m ρ c (Proc.devRef .tc main_v25) : S1000000x128.Idx → EReal) = (dat1 (V5 m ρ) c).arrAt 3 cfg1.N := W6_arr m ρ c 3
  rw [e1, SegGather.gathered_final (V5 m ρ) c]
  have eH : SegGather.harr (V5 m ρ) c = aH m c := V5_arg0 m ρ c
  have eB : ∀ n : Fin 1000000, SegGather.idcol (V5 m ρ) c (ix2 n 0) = aB m c (ix1 n) := fun n =>
    (congrFun (V5_ids m ρ c) (ix2 n 0)).trans (V1_ids m ρ c n)
  have eG : SegGather.gtab (V5 m ρ) c = gate (segSum (aH m c) (aB m c)) (segCnt (aB m c)) (aW1 m c) (ab1 m c) (aW2 m c) (ab2 m c) := by
    show (V5 m ρ c main_v24 : S64x128.Idx → EReal) = _
    rw [gtab_eq, sums_eq, counts_eq, W2_arg2, W2_arg3, W2_arg4, W2_arg5]
  funext i
  obtain ⟨n, d, rfl⟩ : ∃ (n : Fin 1000000) (d : Fin 128), i = ix2 n d := ⟨i 0, i 1, eq_ix2 i⟩
  show SegGather.harr (V5 m ρ) c (ix2 n d) * ∑ s : Fin 64, onehot (SegGather.idcol (V5 m ρ) c (ix2 n 0)) s * SegGather.gtab (V5 m ρ) c (ix2 s d) = _
  rw [eH, eB n, eG, sum_onehot_mul _ (hB n) (fun s => gate (segSum (aH m c) (aB m c)) (segCnt (aB m c)) (aW1 m c) (ab1 m c) (aW2 m c) (ab2 m c) (ix2 s d))]
  rfl

/-- The run: every weakly fair execution ends with the result array at `modulated` of the arguments and the arguments
    as launched, when every id is inside [0, 64). -/
theorem run (hB : ∀ (c : Dev nD) (n : Fin 1000000), (aB m c (ix1 n)).toNat < 64) :
    θ_run defs (onTc (τ := τ) (main (F := Ideal))) ⟨m, fun _ => 0, ρ⟩ (fun r => ∀ c : Dev nD,
      r.2.mem ((c.tc : Thread nD τ).loc main_v25) = modulated (aH m c) (aB m c) (aW1 m c) (ab1 m c) (aW2 m c) (ab2 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c => ⟨(h c).1.trans (result_eq m ρ c (hB c)), (h c).2⟩) (run_result m ρ)

end Cert.KernelIdeal.SegValue

end
-- ==== Proof.RefValue.lean ====
/-
  The reference computes the same function: its two accumulating scatters are the segment sums and counts (an update
  lands on the segment its id word names, read signed; inside [0, 64) that is the word itself), the network in between is
  the shared gate term, and its gather of gate rows at the wrapped-and-clamped id is the row of the segment the word names.

  Layout of the argument. First the three index records are read coordinate by coordinate: for the two scatters, where
  an update lands (start index read signed off the id column, plus the window coordinate; kept only inside the operand);
  for the gather, which table element a result element reads (the start index clamped into [0, 63], plus the column).
  Then each scatter, read at one element, is the zero it starts from plus the sum over all rows of "the row's update
  if its id reads this segment, else zero"; written with the indicator and cut into the 100 tiles this is the segment sum
  (the segment count, for updates all equal to one). The network between is literally the shared gate term. Last, for an
  id word in [0, 64) the wrap leaves the word alone, the clamp does too, and the row read is the row of its segment.
-/
import proofs.«410420_j8383776162380_3_alg».proof.Proof.Gen.ReferenceIdeal.Read
import proofs.«410420_j8383776162380_3_alg».proof.Proof.Spec
import Idealize.ShloMosaic.Lib.ValueIdx
import Idealize.ShloMosaic.Lib.ValueLayout
import Idealize.ShloMosaic.Lib.StableHlo.Predicate
import Idealize.ShloMosaic.PureOps.Ideal.Laws

noncomputable section

open scoped BigOperators

namespace Cert.ReferenceIdeal.RefValue

open Cert.ReferenceIdeal Cert.ReferenceIdeal.Gen Cert.SegGate
open Idealize.ShloMosaic Idealize.ShloMosaic.TcCoe Idealize.ShloMosaic.ValueIdx Idealize.SL.Sem

/-- The dimension numbers of the scatter into the [64, 128] sums: a row of updates per scatter index, one index component naming the row. -/
abbrev sd2 := scatter_S64x128_S1000000x1_S1000000x128_1_0_0_1
/-- The dimension numbers of the scatter into the [64] counts: one scalar update per scatter index. -/
abbrev sd1 := scatter_S64_S1000000x1_S1000000_n_0_0_1
/-- The dimension numbers of the gather of rows of the [64, 128] table: one index component naming the row, the column an offset axis. -/
abbrev gd := gather_S64x128_S1000000x1_S1000000x128_1_0_n_n_0_1_1128

/-! ## The three index records, coordinate by coordinate -/

/-- Update (n, d) of the sums reads its one start-index component at (n, 0) of the id column. -/
theorem sd2_siIdx (j : S1000000x128.Idx) (c : Fin sd2.scatterDimsToOperandDims.length) :
    sd2.siIdx j c = ix2 (j 0) (0 : Fin 1) := by
  funext b
  refine Fin.ext ?_
  match b with
  | ⟨0, _⟩ => rfl
  | ⟨1, _⟩ =>
    have := c.isLt
    show c.val = 0
    have h : sd2.scatterDimsToOperandDims.length = 1 := rfl
    omega

/-- On the segment axis the window of update (n, d) starts at the id of row n, read signed. -/
theorem sd2_start0 (j : S1000000x128.Idx) (idx : IVec S1000000x1 32) :
    sd2.start j idx 0 = (idx (ix2 (j 0) (0 : Fin 1))).toInt := by
  unfold ScatterDims.start
  rw [dif_pos (show (0 : Fin S64x128.rank) ∈ sd2.scatterDimsToOperandDims by decide), sd2_siIdx]
  rfl

/-- On the column axis it starts at 0. -/
theorem sd2_start1 (j : S1000000x128.Idx) (idx : IVec S1000000x1 32) :
    sd2.start j idx 1 = 0 := by
  unfold ScatterDims.start
  rw [dif_neg (show ¬ (1 : Fin S64x128.rank) ∈ sd2.scatterDimsToOperandDims by decide)]

/-- The segment axis is inserted: no window coordinate there. -/
theorem sd2_window0 (j : S1000000x128.Idx) : sd2.window j 0 = 0 := by
  unfold ScatterDims.window
  rw [dif_neg (show ¬ (0 : Fin S64x128.rank) ∈ sd2.sKept by decide)]

/-- On the column axis the window coordinate is the update's column. -/
theorem sd2_window1 (j : S1000000x128.Idx) : sd2.window j 1 = (j 1).val := by
  unfold ScatterDims.window
  rw [dif_pos (show (1 : Fin S64x128.rank) ∈ sd2.sKept by decide)]
  rfl

/-- Update n of the counts reads its one start-index component at (n, 0) of the id column. -/
theorem sd1_siIdx (j : S1000000.Idx) (c : Fin sd1.scatterDimsToOperandDims.length) :
    sd1.siIdx j c = ix2 (j 0) (0 : Fin 1) := by
  funext b
  refine Fin.ext ?_
  match b with
  | ⟨0, _⟩ => rfl
  | ⟨1, _⟩ =>
    have := c.isLt
    show c.val = 0
    have h : sd1.scatterDimsToOperandDims.length = 1 := rfl
    omega

/-- Its window starts at the id of row n, read signed. -/
theorem sd1_start0 (j : S1000000.Idx) (idx : IVec S1000000x1 32) :
    sd1.start j idx 0 = (idx (ix2 (j 0) (0 : Fin 1))).toInt := by
  unfold ScatterDims.start
  rw [dif_pos (show (0 : Fin S64.rank) ∈ sd1.scatterDimsToOperandDims by decide), sd1_siIdx]
  rfl

/-- The one operand axis is inserted: no window coordinate. -/
theorem sd1_window0 (j : S1000000.Idx) : sd1.window j 0 = 0 := by
  unfold ScatterDims.window
  rw [dif_neg (show ¬ (0 : Fin S64.rank) ∈ sd1.sKept by decide)]

/-- Result element (n, d) of the gather reads its one start-index component at (n, 0) of the index column. -/
theorem gd_siIdx (j : S1000000x128.Idx) (c : Fin gd.startIndexMap.length) :
    gd.siIdx j c = ix2 (j 0) (0 : Fin 1) := by
  funext b
  refine Fin.ext ?_
  match b with
  | ⟨0, _⟩ => rfl
  | ⟨1, _⟩ =>
    have := c.isLt
    show c.val = 0
    have h : gd.startIndexMap.length = 1 := rfl
    omega

/-- It reads the table at (start index read signed and clamped into [0, 63], d). -/
theorem gd_operandIdx (j : S1000000x128.Idx) (idx : IVec S1000000x1 32) :
    gd.operandIdx j idx = ix2 (⟨min (idx (ix2 (j 0) (0 : Fin 1))).toInt.toNat 63, by omega⟩ : Fin 64) (j 1) := by
  funext a
  refine Fin.ext ?_
  match a with
  | ⟨0, _⟩ =>
    show gd.start j idx 0 + gd.batchCoord j 0 + gd.offCoord j 0 = _
    rw [GatherDims.batchCoord_eq_zero _ _ _ (show ¬ (0 : Fin S64x128.rank) ∈ gd.operandBatchingDims by decide),
      GatherDims.offCoord_eq_zero _ _ _ (show ¬ (0 : Fin S64x128.rank) ∈ gd.sKept by decide)]
    unfold GatherDims.start
    rw [dif_pos (show (0 : Fin S64x128.rank) ∈ gd.startIndexMap by decide), gd_siIdx]
    rfl
  | ⟨1, _⟩ =>
    show gd.start j idx 1 + gd.batchCoord j 1 + gd.offCoord j 1 = _
    rw [GatherDims.batchCoord_eq_zero _ _ _ (show ¬ (1 : Fin S64x128.rank) ∈ gd.operandBatchingDims by decide)]
    unfold GatherDims.start GatherDims.offCoord
    rw [dif_neg (show ¬ (1 : Fin S64x128.rank) ∈ gd.startIndexMap by decide),
      dif_pos (show (1 : Fin S64x128.rank) ∈ gd.sKept by decide)]
    show 0 + 0 + (j 1).val = (j 1).val
    omega

/-! ## Where an update lands -/

/-- A word read signed equals a segment number exactly when it is that number's word. -/
theorem toInt_eq_seg_iff (b : BitVec 32) (s : Fin 64) : b.toInt = (s.val : Int) ↔ b = BitVec.ofNat 32 s.val := by
  constructor
  · intro h
    apply BitVec.eq_of_toNat_eq
    have hs := s.isLt
    have hb := b.isLt
    rw [BitVec.toInt_eq_toNat_cond] at h
    rw [BitVec.toNat_ofNat]
    split at h <;> omega
  · rintro rfl
    exact StableHlo.Predicate.toInt_ofNat_small s.val (by have := s.isLt; omega)

/-- Update (n, d) of the sums lands on element (s, d') exactly when the id of row n reads s and d = d'. -/
theorem sd2_resultIdx_iff (j : S1000000x128.Idx) (idx : IVec S1000000x1 32) (i : S64x128.Idx) :
    sd2.resultIdx? j idx = some i ↔ (idx (ix2 (j 0) (0 : Fin 1))).toInt = ((i 0).val : Int) ∧ (j 1).val = (i 1).val := by
  unfold ScatterDims.resultIdx?
  have hi0 : (i 0).val < 64 := (i 0).isLt
  have hi1 : (i 1).val < 128 := (i 1).isLt
  have hj1 : (j 1).val < 128 := (j 1).isLt
  split
  · next h =>
    rw [Option.some.injEq]
    constructor
    · intro e
      have e0 := congrArg (fun f => (f 0).val) e
      have e1 := congrArg (fun f => (f 1).val) e
      simp only [sd2_start0, sd2_start1, sd2_window0, sd2_window1] at e0 e1
      have h0 := h 0
      rw [sd2_start0, sd2_window0] at h0
      constructor <;> omega
    · rintro ⟨e0, e1⟩
      funext a
      refine Fin.ext ?_
      match a with
      | ⟨0, _⟩ =>
        show (sd2.start j idx 0 + (sd2.window j 0 : Int)).toNat = (i 0).val
        rw [sd2_start0, sd2_window0, e0]; omega
      | ⟨1, _⟩ =>
        show (sd2.start j idx 1 + (sd2.window j 1 : Int)).toNat = (i 1).val
        rw [sd2_start1, sd2_window1]; omega
  · next h =>
    constructor
    · intro e; exact absurd e (by simp)
    · rintro ⟨e0, e1⟩
      exfalso; apply h
      intro a
      match a with
      | ⟨0, _⟩ =>
        show 0 ≤ sd2.start j idx 0 + (sd2.window j 0 : Int) ∧ sd2.start j idx 0 + (sd2.window j 0 : Int) < (64 : Nat)
        rw [sd2_start0, sd2_window0, e0]; omega
      | ⟨1, _⟩ =>
        show 0 ≤ sd2.start j idx 1 + (sd2.window j 1 : Int) ∧ sd2.start j idx 1 + (sd2.window j 1 : Int) < (128 : Nat)
        rw [sd2_start1, sd2_window1]; omega

/-- Update n of the counts lands on element s exactly when the id of row n reads s. -/
theorem sd1_resultIdx_iff (j : S1000000.Idx) (idx : IVec S1000000x1 32) (i : S64.Idx) :
    sd1.resultIdx? j idx = some i ↔ (idx (ix2 (j 0) (0 : Fin 1))).toInt = ((i 0).val : Int) := by
  unfold ScatterDims.resultIdx?
  have hi0 : (i 0).val < 64 := (i 0).isLt
  split
  · next h =>
    rw [Option.some.injEq]
    constructor
    · intro e
      have e0 := congrArg (fun f => (f 0).val) e
      simp only [sd1_start0, sd1_window0] at e0
      have h0 := h 0
      rw [sd1_start0, sd1_window0] at h0
      omega
    · intro e0
      funext a
      refine Fin.ext ?_
      match a with
      | ⟨0, _⟩ =>
        show (sd1.start j idx 0 + (sd1.window j 0 : Int)).toNat = (i 0).val
        rw [sd1_start0, sd1_window0, e0]; omega
  · next h =>
    constructor
    · intro e; exact absurd e (by simp)
    · intro e0
      exfalso; apply h
      intro a
      match a with
      | ⟨0, _⟩ =>
        show 0 ≤ sd1.start j idx 0 + (sd1.window j 0 : Int) ∧ sd1.start j idx 0 + (sd1.window j 0 : Int) < (64 : Nat)
        rw [sd1_start0, sd1_window0, e0]; omega

/-! ## The scatters read at an element -/

/-- A rank-1 index set is its one coordinate range … -/
def idxEquiv1 {n : Nat} : (⟨1, ![n]⟩ : Shape).Idx ≃ Fin n where
  toFun i := i 0
  invFun p := ix1 p
  left_inv i := (eq_ix1 i).symm
  right_inv _ := rfl

/-- … so a sum over it is the sum over the coordinate. -/
theorem sum_idx1 {M : Type} [AddCommMonoid M] {n : Nat} (f : (⟨1, ![n]⟩ : Shape).Idx → M) :
    ∑ i, f i = ∑ a : Fin n, f (ix1 a) := by
  rw [← Equiv.sum_comp (idxEquiv1 (n := n)).symm f]
  rfl

/-- The updates that land on element (s, d) of the sums are the rows whose id word reads s, at column d. -/
theorem scatter2_sum (idx : IVec S1000000x1 32) (H : S1000000x128.Idx → EReal) (s : Fin 64) (d : Fin 128) :
    ∑ j ∈ Finset.univ.filter (fun j => sd2.resultIdx? j idx = some (ix2 s d)), H j
      = ∑ n : Fin 1000000, (if (idx (ix2 n (0 : Fin 1))).toInt = (s.val : Int) then H (ix2 n d) else 0) := by
  rw [Finset.sum_filter, sum_idx2]
  refine Finset.sum_congr rfl fun n _ => ?_
  have key : ∀ b : Fin 128, (sd2.resultIdx? (ix2 n b) idx = some (ix2 s d)) ↔
      ((idx (ix2 n (0 : Fin 1))).toInt = (s.val : Int) ∧ b.val = d.val) := fun b => sd2_resultIdx_iff (ix2 n b) idx (ix2 s d)
  simp only [key]
  by_cases hP : (idx (ix2 n (0 : Fin 1))).toInt = (s.val : Int)
  · rw [if_pos hP, Finset.sum_eq_single d]
    · rw [if_pos ⟨hP, rfl⟩]
    · intro b _ hb
      rw [if_neg]
      rintro ⟨_, e⟩
      exact hb (Fin.ext e)
    · intro h; exact absurd (Finset.mem_univ _) h
  · rw [if_neg hP]
    refine Finset.sum_eq_zero fun b _ => ?_
    rw [if_neg]
    rintro ⟨e, _⟩
    exact hP e

/-- The updates that land on element s of the counts are the rows whose id word reads s. -/
theorem scatter1_sum (idx : IVec S1000000x1 32) (U : S1000000.Idx → EReal) (s : Fin 64) :
    ∑ j ∈ Finset.univ.filter (fun j => sd1.resultIdx? j idx = some (ix1 s)), U j
      = ∑ n : Fin 1000000, (if (idx (ix2 n (0 : Fin 1))).toInt = (s.val : Int) then U (ix1 n) else 0) := by
  rw [Finset.sum_filter, sum_idx1]
  refine Finset.sum_congr rfl fun n _ => ?_
  have key : (sd1.resultIdx? (ix1 n) idx = some (ix1 s)) ↔ (idx (ix2 n (0 : Fin 1))).toInt = (s.val : Int) :=
    sd1_resultIdx_iff (ix1 n) idx (ix1 s)
  simp only [key]

/-- The indicator times a value is the value where the word reads the segment's number, else zero. -/
theorem onehot_mul (b : BitVec 32) (s : Fin 64) (x : EReal) :
    (if b.toInt = (s.val : Int) then x else 0) = onehot b s * x := by
  unfold onehot
  by_cases h : b = BitVec.ofNat 32 s.val
  · rw [if_pos ((toInt_eq_seg_iff b s).2 h), if_pos h, one_mul]
  · rw [if_neg (fun e => h ((toInt_eq_seg_iff b s).1 e)), if_neg h, zero_mul]

/-- The scatter into the sums at (s, d): what was there plus the column-d entries of the rows whose id reads s. -/
theorem scatterAdd2_apply (x : FVec Ideal S64x128 .f32) (idx : IVec S1000000x1 32) (H : FVec Ideal S1000000x128 .f32)
    (s : Fin 64) (d : Fin 128) :
    Host.scatterAdd sd2 x idx H (ix2 s d)
      = x (ix2 s d) + ∑ n : Fin 1000000, (if (idx (ix2 n (0 : Fin 1))).toInt = (s.val : Int) then H (ix2 n d) else 0) := by
  show Ideal.hostScatterAdd sd2 x idx H (ix2 s d) = _
  unfold Ideal.hostScatterAdd
  rw [scatter2_sum]

/-- The scatter into the counts at s: what was there plus the updates of the rows whose id reads s. -/
theorem scatterAdd1_apply (x : FVec Ideal S64 .f32) (idx : IVec S1000000x1 32) (U : FVec Ideal S1000000 .f32) (s : Fin 64) :
    Host.scatterAdd sd1 x idx U (ix1 s)
      = x (ix1 s) + ∑ n : Fin 1000000, (if (idx (ix2 n (0 : Fin 1))).toInt = (s.val : Int) then U (ix1 n) else 0) := by
  show Ideal.hostScatterAdd sd1 x idx U (ix1 s) = _
  unfold Ideal.hostScatterAdd
  rw [scatter1_sum]

/-- The id column read at row n is the id word of row n. -/
theorem v1_apply (B : IVec S1000000 32) (n : Fin 1000000) :
    Read.val_main_v1 (F := Ideal) B (ix2 n (0 : Fin 1)) = B (ix1 n) := by
  rw [Read.val_main_v1_apply]
  congr 1
  funext a
  match a with
  | ⟨0, _⟩ => rfl

/-- The same for the second copy of the id column. -/
theorem v5_apply (B : IVec S1000000 32) (n : Fin 1000000) :
    Read.val_main_v5 (F := Ideal) B (ix2 n (0 : Fin 1)) = B (ix1 n) := by
  rw [Read.val_main_v5_apply]
  congr 1
  funext a
  match a with
  | ⟨0, _⟩ => rfl

/-- The word of the float one is the extended real one. -/
theorem ofBits_one_f32 : Ideal.ofBits .f32 0x3F800000#32 = 1 := by
  simp [Ideal.ofBits, Ideal.ieee, -EReal.coe_mul]; norm_num

/-! ## The two scatters are the segment sums and counts -/

/-- The first scatter is the segment sums: zero plus, tile by tile, the indicator-weighted rows. -/
theorem v2_eq (H : FVec Ideal S1000000x128 .f32) (B : IVec S1000000 32) :
    Read.val_main_v2 (F := Ideal) H B = segSum H B := by
  funext i
  obtain ⟨s, d, rfl⟩ : ∃ (s : Fin 64) (d : Fin 128), i = ix2 s d := ⟨i 0, i 1, eq_ix2 i⟩
  unfold Read.val_main_v2
  rw [scatterAdd2_apply, Read.val_main_v0_apply, Read.val_main_cst_apply, Ideal.ofBits_def, Ideal.ofBits_zero_f32, zero_add,
    sum_rows]
  show _ = ∑ t ∈ Finset.range 100, tileSum H B t s d
  refine Finset.sum_congr rfl fun t _ => ?_
  show _ = ∑ r : Fin 10000, onehot (B (ix1 (rowN t r.val))) s * H (ix2 (rowN t r.val) d)
  refine Finset.sum_congr rfl fun r _ => ?_
  rw [v1_apply, onehot_mul]

/-- The second scatter, of ones, is the segment counts. -/
theorem v6_eq (B : IVec S1000000 32) : Read.val_main_v6 (F := Ideal) B = segCnt B := by
  funext i
  obtain ⟨s, rfl⟩ : ∃ (s : Fin 64), i = ix1 s := ⟨i 0, eq_ix1 i⟩
  unfold Read.val_main_v6
  rw [scatterAdd1_apply, Read.val_main_v4_apply, Read.val_main_cst_1_apply, Ideal.ofBits_def, Ideal.ofBits_zero_f32, zero_add,
    sum_rows]
  show _ = ∑ t ∈ Finset.range 100, tileCnt B t s
  refine Finset.sum_congr rfl fun t _ => ?_
  show _ = ∑ r : Fin 10000, onehot (B (ix1 (rowN t r.val))) s
  refine Finset.sum_congr rfl fun r _ => ?_
  rw [v5_apply, Read.val_main_v3_apply, Read.val_main_cst_0_apply, Ideal.ofBits_def, ofBits_one_f32, onehot_mul, mul_one]

/-! ## The network in between is the shared gate term -/

/-- Operation by operation the reference's network on its two scatters is the gate term of the specification: the same
    operations in the same order on the same literals, the two contraction records equal field by field. -/
theorem gate_eq (H : FVec Ideal S1000000x128 .f32) (B : IVec S1000000 32) (W1 : FVec Ideal S128x128 .f32)
    (b1 : FVec Ideal S128 .f32) (W2 : FVec Ideal S128x128 .f32) (b2 : FVec Ideal S128 .f32) :
    Read.val_main_v26 (F := Ideal) H B W1 b1 W2 b2
      = gate (Read.val_main_v2 (F := Ideal) H B) (Read.val_main_v6 (F := Ideal) B) W1 b1 W2 b2 := by
  generalize hx : Read.val_main_v2 (F := Ideal) H B = X
  generalize hy : Read.val_main_v6 (F := Ideal) B = Y
  unfold Read.val_main_v26 Read.val_main_v25 Read.val_main_v24 Read.val_main_v23 Read.val_main_v22 Read.val_main_v21
    Read.val_main_v20 Read.val_main_v19 Read.val_main_v18 Read.val_main_v17 Read.val_main_v16 Read.val_main_call0_v0
    Read.val_main_call0_cst Read.val_main_v15 Read.val_main_v14 Read.val_main_v13 Read.val_main_v12 Read.val_main_v11
    Read.val_main_v10 Read.val_main_v9 Read.val_main_v8 Read.val_main_v7 Read.val_main_cst_2 Read.val_main_cst_3
    Read.val_main_cst_4
  rw [hx, hy]
  rfl

/-! ## The gather of gate rows -/

/-- In range the wrapped id is the id itself: the word is not negative, so the select keeps it. -/
theorem v32_apply (B : IVec S1000000 32) (n : Fin 1000000) (hb : (B (ix1 n)).toNat < 64) :
    Read.val_main_v32 (F := Ideal) B (ix2 n (0 : Fin 1)) = B (ix1 n) := by
  rw [Read.val_main_v32_apply]
  have e : Read.idx_main_v32 (ix2 n (0 : Fin 1)) = ix1 n := by
    funext a
    match a with
    | ⟨0, _⟩ => rfl
  rw [e, Read.val_main_v31_apply, Read.val_main_v28_apply, Read.val_main_v27_apply, Read.val_main_c_apply]
  have h0 : IntOp.cmpi .slt (B (ix1 n)) 0#32 = 0#1 := by
    apply eq_zero_of_ne_one
    intro h
    have h00 : (0#32 : BitVec 32).toNat = 0 := rfl
    have := (StableHlo.Predicate.slt_iff_toNat (a := B (ix1 n)) (b := 0#32) (by omega) (by rw [h00]; omega)).1 h
    omega
  rw [h0, select_zero]

/-- The gather reads, at row n and column d, the table at the row's start index read signed and clamped into [0, 63]. -/
theorem gather_apply (G : FVec Ideal S64x128 .f32) (idx : IVec S1000000x1 32) (n : Fin 1000000) (d : Fin 128)
    (s : Fin 64) (hs : min (idx (ix2 n (0 : Fin 1))).toInt.toNat 63 = s.val) :
    Host.gather gd G idx (ix2 n d) = G (ix2 s d) := by
  unfold Host.gather
  rw [gd_operandIdx]
  congr 1
  funext a
  match a with
  | ⟨0, _⟩ => exact Fin.ext hs
  | ⟨1, _⟩ => rfl

/-- An in-range word read signed and clamped names its own segment. -/
theorem clamp_eq_segOf (b : BitVec 32) (hb : b.toNat < 64) : min b.toInt.toNat 63 = (segOf b).val := by
  show min b.toInt.toNat 63 = b.toNat % 64
  rw [StableHlo.Predicate.toInt_eq_toNat_of_lt (by omega), Int.toNat_natCast, Nat.mod_eq_of_lt hb]
  omega

/-! ## The result -/

/-- The reference's result, as the run states it, is `modulated` of the arguments when every id word is in [0, 64). -/
theorem result_eq (H : FVec Ideal S1000000x128 .f32) (B : IVec S1000000 32) (W1 : FVec Ideal S128x128 .f32)
    (b1 : FVec Ideal S128 .f32) (W2 : FVec Ideal S128x128 .f32) (b2 : FVec Ideal S128 .f32)
    (hB : ∀ n : Fin 1000000, (B (ix1 n)).toNat < 64) :
    Cert.ReferenceIdeal.Read.val_main_v34 (F := Ideal) H B W1 b1 W2 b2 = modulated H B W1 b1 W2 b2 := by
  funext i
  obtain ⟨n, d, rfl⟩ : ∃ (n : Fin 1000000) (d : Fin 128), i = ix2 n d := ⟨i 0, i 1, eq_ix2 i⟩
  rw [Read.val_main_v34_apply]
  unfold Read.val_main_v33
  have hs : min (Read.val_main_v32 (F := Ideal) B (ix2 n (0 : Fin 1))).toInt.toNat 63 = (segOf (B (ix1 n))).val := by
    rw [v32_apply B n (hB n)]
    exact clamp_eq_segOf _ (hB n)
  rw [gather_apply _ _ n d _ hs, gate_eq, v2_eq, v6_eq]
  rfl

end Cert.ReferenceIdeal.RefValue

end
-- ==== Proof.PreRange.lean ====
/-
  The precondition's last two conjuncts say every id word is at least 0 and below 64, read signed; so as a natural number
  it is below 64.
-/
import proofs.«410420_j8383776162380_3_alg».proof.Pre_finite_inputs
import proofs.«410420_j8383776162380_3_alg».proof.Proof.Gen.Pre_finite_inputs
import Idealize.ShloMosaic.Lib.ValueIdx
import Idealize.ShloMosaic.Lib.ReduceAll
import Idealize.ShloMosaic.Lib.StableHlo.Predicate

noncomputable section

namespace Cert.Pre_finite_inputs.Range

open Cert.Pre_finite_inputs Cert.Pre_finite_inputs.Gen
open Idealize.ShloMosaic Idealize.ShloMosaic.ValueIdx

/-- A 32-bit word that is at least 0 and below 64 when read signed is below 64 as a natural number. -/
theorem toNat_lt_of_signed (b : BitVec 32) (h0 : (0#32).toInt ≤ b.toInt) (h1 : b.toInt < (64#32).toInt) :
    b.toNat < 64 := by
  have e0 : (0#32).toInt = 0 := by decide
  have e1 : (64#32).toInt = 64 := by decide
  rw [e0] at h0
  rw [e1] at h1
  rw [BitVec.toInt_eq_toNat_cond] at h0 h1
  have hb := b.isLt
  split at h0 <;> omega

/-- Under the precondition every segment id is in [0, 64). -/
theorem ids_in_range (x0 : FVec Ideal S1000000x128 .f32) (x1 : IVec S1000000 32) (x2 : FVec Ideal S128x128 .f32)
    (x3 : FVec Ideal S128 .f32) (x4 : FVec Ideal S128x128 .f32) (x5 : FVec Ideal S128 .f32)
    (h : Cert.Pre_finite_inputs.fn (F := Ideal) x0 x1 x2 x3 x4 x5 = fun _ => 1#1) :
    ∀ n : Fin 1000000, (x1 (ix1 n)).toNat < 64 := by
  intro n
  -- the scalar shape has exactly one index
  haveI : Subsingleton S_.Idx := ⟨fun a b => funext fun d => d.elim0⟩
  -- the conjunction at that index; its last two conjuncts are the two range tests over all rows
  have h' := congrFun h ValueIdx.ix0
  dsimp only [Cert.Pre_finite_inputs.fn, Cert.Pre_finite_inputs.fn_part1] at h'
  obtain ⟨hA, hlt⟩ := IntOp.andi_eq_one.1 h'
  obtain ⟨-, hge⟩ := IntOp.andi_eq_one.1 hA
  -- an all-reduction by "and" that is 1 had a 1 at every row; the broadcast constant reads the constant
  have ge : IntOp.cmpi .sge (x1 (ix1 n)) (0#32) = 1#1 := Host.reduce_andi_all _ _ _ _ ix0 hge (ix1 n)
  have lt : IntOp.cmpi .slt (x1 (ix1 n)) (64#32) = 1#1 := Host.reduce_andi_all _ _ _ _ ix0 hlt (ix1 n)
  exact toNat_lt_of_signed _ (IntOp.cmpi_sge.1 ge) (IntOp.cmpi_slt.1 lt)

end Cert.Pre_finite_inputs.Range

end
-- ==== Proof.lean ====
/-
  Equivalence over the extended reals of a tiled segment-mean / gate / gather kernel against its segment_sum reference.

  Both programs compute, for rows `h[n, :]` with segment ids `id[n]` in [0, 64): the per-segment sums and counts of
  the rows, the mean (sum / max(count, 1)), a two-layer gate network on the 64 means (linear, relu, linear, logistic),
  and the result `h[n, :] * gate[id[n], :]`. The kernel forms the sums and counts as products with the one-hot matrix
  of the ids, tile by tile in two halves that the host adds, and gathers the gate rows by one more one-hot product;
  the reference uses an accumulating scatter and a gather. Over the extended reals a sum may be regrouped freely and the
  one-hot factors are exactly 0 and 1, so both results are the one function `modulated` of the arguments. Outside
  [0, 64) the two differ (the one-hot row of such an id is zero, while the reference's gather wraps and clamps the
  id), which is why the precondition states the range; the range is used only at the final gather.

  The three frames are the generated ones (the reference's is its generated run with the result dropped); the ideal
  pass rewrote nothing, so `preserves` is trivial.
-/
import proofs.«410420_j8383776162380_3_alg».proof.Defs
import proofs.«410420_j8383776162380_3_alg».proof.Proof.Gen.Kernel
import proofs.«410420_j8383776162380_3_alg».proof.Proof.Gen.Kernel.Frame
import proofs.«410420_j8383776162380_3_alg».proof.Proof.Gen.KernelIdeal
import proofs.«410420_j8383776162380_3_alg».proof.Proof.Gen.KernelIdeal.Frame
import proofs.«410420_j8383776162380_3_alg».proof.Proof.Gen.ReferenceIdeal
import proofs.«410420_j8383776162380_3_alg».proof.Proof.Gen.ReferenceIdeal.Run
import proofs.«410420_j8383776162380_3_alg».proof.Proof.Gen.ReferenceIdeal.Read
import proofs.«410420_j8383776162380_3_alg».proof.Proof.Gen.Pre_finite_inputs
import proofs.«410420_j8383776162380_3_alg».proof.Proof.KernelValue
import proofs.«410420_j8383776162380_3_alg».proof.Proof.RefValue
import proofs.«410420_j8383776162380_3_alg».proof.Proof.PreRange
import Idealize.ShloMosaic.Adequacy
import Idealize.ShloMosaic.Init

noncomputable section

namespace Cert.Proof

open Idealize.ShloMosaic Idealize.ShloMosaic.ValueIdx Idealize.SL.Sem Cert.SegGate

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both runs end at `modulated` of the arguments: the kernel's by its value read off the frame run, the reference's
    by its run's term; the id range comes from the precondition, and the arguments agree. -/
theorem algebraic : Cert.algebraic_KernelIdeal_ReferenceIdeal := by
  intro m ρ m' ρ' hpre hagree
  have hB : ∀ (c : Dev Cert.KernelIdeal.nD) (n : Fin 1000000),
      (Cert.KernelIdeal.SegValue.aB m c (ix1 n)).toNat < 64 :=
    fun c => Cert.Pre_finite_inputs.Range.ids_in_range _ _ _ _ _ _ (hpre c)
  refine ⟨_, Cert.KernelIdeal.SegValue.run m ρ hB, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2.1, (hagree c).2.2.2.1, (hagree c).2.2.2.2.1, (hagree c).2.2.2.2.2]
  rw [Cert.ReferenceIdeal.Read.val_main_v34_eq]
  exact Cert.ReferenceIdeal.RefValue.result_eq _ _ _ _ _ _ (hB c)

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
